-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x3 : Shape := ⟨2, ![16777216, 3]⟩
abbrev S16777216 : Shape := ⟨1, ![16777216]⟩
abbrev S2 : Shape := ⟨1, ![2]⟩
abbrev S_ : Shape := ⟨0, ![]⟩

class Facts : Prop where
  bcast_S_S16777216x3 : S_.BroadcastsInDim S16777216x3 (![] : Fin 0 → Fin S16777216x3.rank)
  reducesTo_S16777216x3_S_d0_1 : S16777216x3.ReducesTo [0, 1] S_
  h_S_ : 0 < S_.numel
  bcast_S_S2 : S_.BroadcastsInDim S2 (![] : Fin 0 → Fin S2.rank)
  reducesTo_S2_S_d0 : S2.ReducesTo [0] S_
  bcast_S_S16777216 : S_.BroadcastsInDim S16777216 (![] : Fin 0 → Fin S16777216.rank)
  reducesTo_S16777216_S_d0 : S16777216.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16777216x3 .f32) (main_arg1 : IVec S16777216 32) (main_arg2 : FVec F S2 .f32) : IVec S_ 1 :=
  let main_v0 : FVec F S16777216x3 .f32 := Host.absf main_arg0
  let main_cst : FVec F S_ .f32 := constant S_ .f32 0x7F800000#32
  let main_v1 : FVec F S16777216x3 .f32 := broadcastInDim S16777216x3 ![] bcast_S_S16777216x3 main_cst
  let main_v2 : IVec S16777216x3 1 := cmpf .olt main_v0 main_v1
  let main_c : IVec S_ 1 := constantI S_ 1 1#1
  let main_v3 : IVec S_ 1 := (fun x v => Host.reduce IntOp.andi x v reducesTo_S16777216x3_S_d0_1 h_S_) main_v2 main_c
  let main_v4 : FVec F S2 .f32 := Host.absf main_arg2
  let main_cst_0 : FVec F S_ .f32 := constant S_ .f32 0x7F800000#32
  let main_v5 : FVec F S2 .f32 := broadcastInDim S2 ![] bcast_S_S2 main_cst_0
  let main_v6 : IVec S2 1 := cmpf .olt main_v4 main_v5
  let main_c_1 : IVec S_ 1 := constantI S_ 1 1#1
  let main_v7 : IVec S_ 1 := (fun x v => Host.reduce IntOp.andi x v reducesTo_S2_S_d0 h_S_) main_v6 main_c_1
  let main_v8 : IVec S_ 1 := andi main_v3 main_v7
  let main_c_2 : IVec S_ 32 := constantI S_ 32 0#32
  let main_v9 : IVec S16777216 32 := broadcastInDim S16777216 ![] bcast_S_S16777216 main_c_2
  let main_v10 : IVec S16777216 1 := cmpi .sge main_arg1 main_v9
  let main_c_3 : IVec S_ 1 := constantI S_ 1 1#1
  let main_v11 : IVec S_ 1 := (fun x v => Host.reduce IntOp.andi x v reducesTo_S16777216_S_d0 h_S_) main_v10 main_c_3
  let main_v12 : IVec S_ 1 := andi main_v8 main_v11
  let main_c_4 : IVec S_ 32 := constantI S_ 32 3#32
  let main_v13 : IVec S16777216 32 := broadcastInDim S16777216 ![] bcast_S_S16777216 main_c_4
  let main_v14 : IVec S16777216 1 := cmpi .slt main_arg1 main_v13
  let main_c_5 : IVec S_ 1 := constantI S_ 1 1#1
  let main_v15 : IVec S_ 1 := (fun x v => Host.reduce IntOp.andi x v reducesTo_S16777216_S_d0 h_S_) main_v14 main_c_5
  fn_part1 (F := F) main_v12 main_v15
-- ==== Kernel.lean ====
abbrev S16777216x3 : Shape := ⟨2, ![16777216, 3]⟩
abbrev S16777216 : Shape := ⟨1, ![16777216]⟩
abbrev S2 : Shape := ⟨1, ![2]⟩
abbrev S131072x128x3 : Shape := ⟨3, ![131072, 128, 3]⟩
abbrev S131072x128x1 : Shape := ⟨3, ![131072, 128, 1]⟩
abbrev S131072x128 : Shape := ⟨2, ![131072, 128]⟩
abbrev S2x1x6 : Shape := ⟨3, ![2, 1, 6]⟩
abbrev S1024x128 : Shape := ⟨2, ![1024, 128]⟩
abbrev S1x1x6 : Shape := ⟨3, ![1, 1, 6]⟩
abbrev S1x6 : Shape := ⟨2, ![1, 6]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S2x6 : Shape := ⟨2, ![2, 6]⟩
abbrev S_ : Shape := ⟨0, ![]⟩
abbrev S6 : Shape := ⟨1, ![6]⟩
abbrev S2x3 : Shape := ⟨2, ![2, 3]⟩

abbrev nBuf : Space → Nat
  | .hbm => 30
  | .vmem => 10
  | .smem => 0
  | _ => 0

abbrev bufTy : (tb : Table) → Fin (tcTables nBuf tb) → BufTy
  | .hbm, ⟨0, _⟩ => ⟨S16777216x3, .f32⟩
  | .hbm, ⟨1, _⟩ => ⟨S16777216, .i32⟩
  | .hbm, ⟨2, _⟩ => ⟨S2, .f32⟩
  | .hbm, ⟨3, _⟩ => ⟨S131072x128x3, .f32⟩
  | .hbm, ⟨4, _⟩ => ⟨S131072x128x1, .f32⟩
  | .hbm, ⟨5, _⟩ => ⟨S131072x128, .f32⟩
  | .hbm, ⟨6, _⟩ => ⟨S131072x128x1, .f32⟩
  | .hbm, ⟨7, _⟩ => ⟨S131072x128, .f32⟩
  | .hbm, ⟨8, _⟩ => ⟨S131072x128x1, .f32⟩
  | .hbm, ⟨9, _⟩ => ⟨S131072x128, .f32⟩
  | .hbm, ⟨10, _⟩ => ⟨S131072x128, .i32⟩
  | .hbm, ⟨11, _⟩ => ⟨S2x1x6, .f32⟩
  | .hbm, ⟨12, _⟩ => ⟨S2x6, .f32⟩
  | .hbm, ⟨13, _⟩ => ⟨S_, .f32⟩
  | .hbm, ⟨14, _⟩ => ⟨S6, .f32⟩
  | .hbm, ⟨15, _⟩ => ⟨S2x3, .f32⟩
  | .hbm, ⟨16, _⟩ => ⟨S_, .f32⟩
  | .hbm, ⟨17, _⟩ => ⟨S2, .f32⟩
  | .hbm, ⟨18, _⟩ => ⟨S2, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .i32⟩
  | .local _ .vmem, ⟨7, _⟩ => ⟨S1024x128, .i32⟩
  | .local _ .vmem, ⟨8, _⟩ => ⟨S1x1x6, .f32⟩
  | .local _ .vmem, ⟨9, _⟩ => ⟨S1x1x6, .f32⟩
  | _, _ => ⟨S16777216x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16777216x3_S131072x128x3 : S16777216x3.ShapeCasts S131072x128x3
  slices_S131072x128x3_S131072x128x1_0_0_0 : S131072x128x3.Slices ![0, 0, 0] S131072x128x1
  shapeCasts_S131072x128x1_S131072x128 : S131072x128x1.ShapeCasts S131072x128
  slices_S131072x128x3_S131072x128x1_0_0_1 : S131072x128x3.Slices ![0, 0, 1] S131072x128x1
  slices_S131072x128x3_S131072x128x1_0_0_2 : S131072x128x3.Slices ![0, 0, 2] S131072x128x1
  shapeCasts_S16777216_S131072x128 : S16777216.ShapeCasts S131072x128
  inb_S1x1x6_S1x1x6_0_0_0 : ∀ a, (![0, 0, 0] : Fin 3 → Nat) a + S1x1x6.size a ≤ S1x1x6.size a
  h_S1x1x6 : 0 < S1x1x6.numel
  shapeCasts_S1x1x6_S1x6 : S1x1x6.ShapeCasts S1x6
  shapeCasts_S1x6_S1x1x6 : S1x6.ShapeCasts S1x1x6
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  iota_S1x6_d1_w32 : S1x6.Iotas .tc 32 [1]
  reduces_S1024x128_S1024 : S1024x128.Reduces [1] S1024
  shapeCasts_S1024_S1024x1 : S1024.ShapeCasts S1024x1
  reduces_S1024x1_S1 : S1024x1.Reduces [0] S1
  shapeCasts_S1_S1x1 : S1.ShapeCasts S1x1
  natLt_1_32 : 1 < 32
  broadcasts_S1x1_S1x6 : S1x1.Broadcasts S1x6
  shapeCasts_S2x1x6_S2x6 : S2x1x6.ShapeCasts S2x6
  reducesTo_S2x6_S6_d0 : S2x6.ReducesTo [0] S6
  h_S_ : 0 < S_.numel
  shapeCasts_S6_S2x3 : S6.ShapeCasts S2x3
  reducesTo_S2x3_S2_d1 : S2x3.ReducesTo [1] S2
  reducesTo_S2_S_d0 : S2.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S131072x128.size a
  hwx0_0 : ∀ i : grid0.Coords, EltTy.bits .f32 = 32 ∨ (Rect.block (s := S131072x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S131072x128.size a
  hwx0_1 : ∀ i : grid0.Coords, EltTy.bits .f32 = 32 ∨ (Rect.block (s := S131072x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S131072x128.size a
  hwx0_2 : ∀ i : grid0.Coords, EltTy.bits .f32 = 32 ∨ (Rect.block (s := S131072x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S131072x128.size a
  hwx0_3 : ∀ i : grid0.Coords, EltTy.bits .i32 = 32 ∨ (Rect.block (s := S131072x128) S1024x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x6.size a ≤ S2x1x6.size a
  hwx0_4 : ∀ i : grid0.Coords, EltTy.bits .f32 = 32 ∨ (Rect.block (s := S2x1x6) S1x1x6.size (cc0_transform_4 i) (hinb0_4 i)).WholeWords (EltTy.packing .f32)

variable [Facts₀]

abbrev win0_0 : Pipeline.Window sig grid0 :=
  Pipeline.Window.ofSpec (Memref.whole main_v2) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1x6.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16777216x3 : Shape := ⟨2, ![16777216, 3]⟩
abbrev S16777216 : Shape := ⟨1, ![16777216]⟩
abbrev S2 : Shape := ⟨1, ![2]⟩
abbrev S_ : Shape := ⟨0, ![]⟩
abbrev S16777216x1 : Shape := ⟨2, ![16777216, 1]⟩
abbrev S16777216x1x1 : Shape := ⟨3, ![16777216, 1, 1]⟩
abbrev S1 : Shape := ⟨1, ![1]⟩
abbrev S1x1x1 : Shape := ⟨3, ![1, 1, 1]⟩
abbrev S6 : Shape := ⟨1, ![6]⟩

abbrev nBuf : Space → Nat
  | .hbm => 81
  | .vmem => 0
  | .smem => 0
  | _ => 0

abbrev bufTy : (tb : Table) → Fin (tcTables nBuf tb) → BufTy
  | .hbm, ⟨0, _⟩ => ⟨S16777216x3, .f32⟩
  | .hbm, ⟨1, _⟩ => ⟨S16777216, .i32⟩
  | .hbm, ⟨2, _⟩ => ⟨S2, .f32⟩
  | .hbm, ⟨3, _⟩ => ⟨S_, .f32⟩
  | .hbm, ⟨4, _⟩ => ⟨S16777216, .f32⟩
  | .hbm, ⟨5, _⟩ => ⟨S_, .f32⟩
  | .hbm, ⟨6, _⟩ => ⟨S16777216, .f32⟩
  | .hbm, ⟨7, _⟩ => ⟨S16777216, .f32⟩
  | .hbm, ⟨8, _⟩ => ⟨S16777216x1, .f32⟩
  | .hbm, ⟨9, _⟩ => ⟨S16777216x3, .f32⟩
  | .hbm, ⟨10, _⟩ => ⟨S16777216x3, .f32⟩
  | .hbm, ⟨11, _⟩ => ⟨S16777216x3, .f32⟩
  | .hbm, ⟨12, _⟩ => ⟨S_, .f32⟩
  | .hbm, ⟨13, _⟩ => ⟨S16777216, .f32⟩
  | .hbm, ⟨14, _⟩ => ⟨S16777216x1, .f32⟩
  | .hbm, ⟨15, _⟩ => ⟨S16777216x1, .f32⟩
  | .hbm, ⟨16, _⟩ => ⟨S16777216x3, .f32⟩
  | .hbm, ⟨17, _⟩ => ⟨S16777216x3, .f32⟩
  | .hbm, ⟨18, _⟩ => ⟨S16777216x1, .i32⟩
  | .hbm, ⟨19, _⟩ => ⟨S_, .i32⟩
  | .hbm, ⟨20, _⟩ => ⟨S16777216x1, .i32⟩
  | .hbm, ⟨21, _⟩ => ⟨S16777216x1, .i1⟩
  | .hbm, ⟨22, _⟩ => ⟨S_, .i32⟩
  | .hbm, ⟨23, _⟩ => ⟨S16777216x1, .i32⟩
  | .hbm, ⟨24, _⟩ => ⟨S16777216x1, .i32⟩
  | .hbm, ⟨25, _⟩ => ⟨S16777216x1, .i32⟩
  | .hbm, ⟨26, _⟩ => ⟨S16777216x1x1, .i32⟩
  | .hbm, ⟨27, _⟩ => ⟨S1, .i32⟩
  | .hbm, ⟨28, _⟩ => ⟨S_, .i32⟩
  | .hbm, ⟨29, _⟩ => ⟨S16777216x1x1, .i32⟩
  | .hbm, ⟨30, _⟩ => ⟨S16777216x1x1, .i1⟩
  | .hbm, ⟨31, _⟩ => ⟨S1x1x1, .i32⟩
  | .hbm, ⟨32, _⟩ => ⟨S16777216x1x1, .i32⟩
  | .hbm, ⟨33, _⟩ => ⟨S16777216x1x1, .i1⟩
  | .hbm, ⟨34, _⟩ => ⟨S16777216x1x1, .i1⟩
  | .hbm, ⟨35, _⟩ => ⟨S_, .i1⟩
  | .hbm, ⟨36, _⟩ => ⟨S16777216x1, .i1⟩
  | .hbm, ⟨37, _⟩ => ⟨S16777216x1, .f32⟩
  | .hbm, ⟨38, _⟩ => ⟨S_, .f32⟩
  | .hbm, ⟨39, _⟩ => ⟨S16777216x1, .f32⟩
  | .hbm, ⟨40, _⟩ => ⟨S16777216x1, .f32⟩
  | .hbm, ⟨41, _⟩ => ⟨S16777216, .f32⟩
  | .hbm, ⟨42, _⟩ => ⟨S16777216, .f32⟩
  | .hbm, ⟨43, _⟩ => ⟨S_, .f32⟩
  | .hbm, ⟨44, _⟩ => ⟨S16777216, .f32⟩
  | .hbm, ⟨45, _⟩ => ⟨S_, .f32⟩
  | .hbm, ⟨46, _⟩ => ⟨S16777216, .f32⟩
  | .hbm, ⟨47, _⟩ => ⟨S16777216, .f32⟩
  | .hbm, ⟨48, _⟩ => ⟨S_, .f32⟩
  | .hbm, ⟨49, _⟩ => ⟨S16777216, .f32⟩
  | .hbm, ⟨50, _⟩ => ⟨S16777216, .i1⟩
  | .hbm, ⟨51, _⟩ => ⟨S_, .i32⟩
  | .hbm, ⟨52, _⟩ => ⟨S_, .i32⟩
  | .hbm, ⟨53, _⟩ => ⟨S16777216, .i32⟩
  | .hbm, ⟨54, _⟩ => ⟨S16777216, .i32⟩
  | .hbm, ⟨55, _⟩ => ⟨S16777216, .i32⟩
  | .hbm, ⟨56, _⟩ => ⟨S16777216, .i32⟩
  | .hbm, ⟨57, _⟩ => ⟨S_, .i32⟩
  | .hbm, ⟨58, _⟩ => ⟨S16777216, .i32⟩
  | .hbm, ⟨59, _⟩ => ⟨S16777216, .i32⟩
  | .hbm, ⟨60, _⟩ => ⟨S16777216, .i32⟩
  | .hbm, ⟨61, _⟩ => ⟨S_, .f32⟩
  | .hbm, ⟨62, _⟩ => ⟨S2, .f32⟩
  | .hbm, ⟨63, _⟩ => ⟨S16777216x1, .i32⟩
  | .hbm, ⟨64, _⟩ => ⟨S2, .f32⟩
  | .hbm, ⟨65, _⟩ => ⟨S_, .f32⟩
  | .hbm, ⟨66, _⟩ => ⟨S6, .f32⟩
  | .hbm, ⟨67, _⟩ => ⟨S16777216x1, .i32⟩
  | .hbm, ⟨68, _⟩ => ⟨S6, .f32⟩
  | .hbm, ⟨69, _⟩ => ⟨S2, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S16777216x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst : Ref sig .tc := ⟨.hbm, 43, rfl⟩
abbrev main_v5 : Ref sig .tc := ⟨.hbm, 44, rfl⟩
abbrev main_cst_0 : Ref sig .tc := ⟨.hbm, 45, rfl⟩
abbrev main_v6 : Ref sig .tc := ⟨.hbm, 46, rfl⟩
abbrev main_v7 : Ref sig .tc := ⟨.hbm, 47, rfl⟩
abbrev main_cst_1 : Ref sig .tc := ⟨.hbm, 48, rfl⟩
abbrev main_v8 : Ref sig .tc := ⟨.hbm, 49, rfl⟩
abbrev main_v9 : Ref sig .tc := ⟨.hbm, 50, rfl⟩
abbrev main_c : Ref sig .tc := ⟨.hbm, 51, rfl⟩
abbrev main_c_2 : Ref sig .tc := ⟨.hbm, 52, rfl⟩
abbrev main_call2_v0 : Ref sig .tc := ⟨.hbm, 53, rfl⟩
abbrev main_call2_v1 : Ref sig .tc := ⟨.hbm, 54, rfl⟩
abbrev main_v10 : Ref sig .tc := ⟨.hbm, 55, rfl⟩
abbrev main_v11 : Ref sig .tc := ⟨.hbm, 56, rfl⟩
abbrev main_c_3 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_cst_4 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_cst_5 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst_6 : Ref sig .tc := ⟨.hbm, 70, rfl⟩
abbrev main_v22 : Ref sig .tc := ⟨.hbm, 71, rfl⟩
abbrev main_cst_7 : Ref sig .tc := ⟨.hbm, 72, rfl⟩
abbrev main_v23 : Ref sig .tc := ⟨.hbm, 73, rfl⟩
abbrev main_cst_8 : Ref sig .tc := ⟨.hbm, 74, rfl⟩
abbrev main_v24 : Ref sig .tc := ⟨.hbm, 75, rfl⟩
abbrev main_cst_9 : Ref sig .tc := ⟨.hbm, 76, rfl⟩
abbrev main_v25 : Ref sig .tc := ⟨.hbm, 77, rfl⟩
abbrev main_cst_10 : Ref sig .tc := ⟨.hbm, 78, rfl⟩
abbrev main_v26 : Ref sig .tc := ⟨.hbm, 79, rfl⟩
abbrev main_v27 : Ref sig .tc := ⟨.hbm, 80, rfl⟩

abbrev nD : Nat := 1
abbrev τ : Topo := Topo.v7x

variable {F : FTy → Type} [FloatOps F]

class Facts₀ : Prop where
  reducesTo_S16777216x3_S16777216_d1 : S16777216x3.ReducesTo [1] S16777216
  h_S_ : 0 < S_.numel
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S16777216x1_S16777216x3_0_1 : S16777216x1.BroadcastsInDim S16777216x3 (![0, 1] : Fin 2 → Fin S16777216x3.rank)
  bcast_S_S16777216x1 : S_.BroadcastsInDim S16777216x1 (![] : Fin 0 → Fin S16777216x1.rank)
  shapeCasts_S16777216x1_S16777216x1x1 : S16777216x1.ShapeCasts S16777216x1x1
  bcast_S_S16777216x1x1 : S_.BroadcastsInDim S16777216x1x1 (![] : Fin 0 → Fin S16777216x1x1.rank)
  bcast_S1_S1x1x1_2 : S1.BroadcastsInDim S1x1x1 (![2] : Fin 1 → Fin S1x1x1.rank)
  bcast_S1x1x1_S16777216x1x1_0_1_2 : S1x1x1.BroadcastsInDim S16777216x1x1 (![0, 1, 2] : Fin 3 → Fin S16777216x1x1.rank)
  reducesTo_S16777216x1x1_S16777216x1_d2 : S16777216x1x1.ReducesTo [2] S16777216x1
  shapeCasts_S16777216x1_S16777216 : S16777216x1.ShapeCasts S16777216
  bcast_S_S2 : S_.BroadcastsInDim S2 (![] : Fin 0 → Fin S2.rank)
  bcast_S_S6 : S_.BroadcastsInDim S6 (![] : Fin 0 → Fin S6.rank)
  reducesTo_S2_S_d0 : S2.ReducesTo [0] S_
  reducesTo_S16777216_S_d0 : S16777216.ReducesTo [0] S_
  gather_S16777216x3_S16777216x1x1_S16777216x1_n_1_0_0_1_2_11_wf : GatherDims.WF S16777216x3 S16777216x1x1 S16777216x1 [] [1] [0] [1] [0] 2 ![1, 1]
  scatter_S2_S16777216x1_S16777216_n_0_0_1_wf : ScatterDims.WF S2 S16777216x1 S16777216 [] [0] [0] 1
  scatter_S6_S16777216x1_S16777216_n_0_0_1_wf : ScatterDims.WF S6 S16777216x1 S16777216 [] [0] [0] 1

variable [Facts₀]

def gather_S16777216x3_S16777216x1x1_S16777216x1_n_1_0_0_1_2_11 : GatherDims S16777216x3 S16777216x1x1 S16777216x1 where
  offsetDims := []
  collapsedSliceDims := [1]
  operandBatchingDims := [0]
  startIndicesBatchingDims := [0]
  startIndexMap := [1]
  indexVectorDim := 2
  sliceSizes := ![1, 1]
  wf := gather_S16777216x3_S16777216x1x1_S16777216x1_n_1_0_0_1_2_11_wf
def scatter_S2_S16777216x1_S16777216_n_0_0_1 : ScatterDims S2 S16777216x1 S16777216 where
  updateWindowDims := []
  insertedWindowDims := [0]
  scatterDimsToOperandDims := [0]
  indexVectorDim := 1
  wf := scatter_S2_S16777216x1_S16777216_n_0_0_1_wf
def scatter_S6_S16777216x1_S16777216_n_0_0_1 : ScatterDims S6 S16777216x1 S16777216 where
  updateWindowDims := []
  insertedWindowDims := [0]
  scatterDimsToOperandDims := [0]
  indexVectorDim := 1
  wf := scatter_S6_S16777216x1_S16777216_n_0_0_1_wf

class Facts : Prop extends Facts₀ where

variable [Facts]
-- ==== Proof.PreFacts.lean ====
/-
  What the precondition says of the inputs, decoded: every logit is a real number, and every label is 0, 1 or 2.
-/
import proofs.«426219_j71717363908861_3_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx

/-- An extended real whose absolute value max(a, -a) lies strictly below +∞ is a real number: at a = +∞ the
    maximum is +∞ itself, at a = -∞ it is -(-∞) = +∞, and neither is below +∞. -/
theorem real_of_abs_lt_top (a : EReal) (h : Ideal.cmp .olt (max a (-a)) ⊤ = 1#1) : ∃ r : ℝ, a = (r : EReal) := by
  induction a using EReal.rec with
  | bot => simp [Ideal.cmp] at h
  | coe r => exact ⟨r, rfl⟩
  | top => simp [Ideal.cmp] at h

/-- A 32-bit word that is at least 0 and below 3 as a signed integer is one of the words 0, 1, 2: its signed
    value is 0, 1 or 2, and a word is determined by its signed value. -/
theorem label_cases (a : BitVec 32) (h0 : IntOp.cmpi .sge a 0#32 = 1#1) (h3 : IntOp.cmpi .slt a 3#32 = 1#1) :
    a = 0#32 ∨ a = 1#32 ∨ a = 2#32 := by
  rw [IntOp.cmpi_sge] at h0
  rw [IntOp.cmpi_slt] at h3
  have e0 : (0#32 : BitVec 32).toInt = 0 := by decide
  have e3 : (3#32 : BitVec 32).toInt = 3 := by decide
  rw [e0] at h0
  rw [e3] at h3
  have hc : a.toInt = 0 ∨ a.toInt = 1 ∨ a.toInt = 2 := by omega
  rcases hc with hc | hc | hc
  · exact Or.inl (BitVec.eq_of_toInt_eq (by rw [hc]; decide))
  · exact Or.inr (Or.inl (BitVec.eq_of_toInt_eq (by rw [hc]; decide)))
  · exact Or.inr (Or.inr (BitVec.eq_of_toInt_eq (by rw [hc]; decide)))

/-- The precondition's conjuncts, element by element: the logits are finite, the labels lie in {0, 1, 2}. -/
theorem of_pre [Cert.Pre_finite_inputs.Facts] (x : FVec Ideal Cert.Pre_finite_inputs.S16777216x3 .f32)
    (l : IVec Cert.Pre_finite_inputs.S16777216 32) (w : FVec Ideal Cert.Pre_finite_inputs.S2 .f32)
    (h : Cert.Pre_finite_inputs.fn (F := Ideal) x l w = fun _ => 1#1) :
    (∀ j, ∃ r : ℝ, x j = (r : EReal))
      ∧ (∀ i : Fin 16777216, l (ix1 i) = 0#32 ∨ l (ix1 i) = 1#32 ∨ l (ix1 i) = 2#32) := by
  -- The result array has rank 0, hence exactly one index.
  haveI : Subsingleton Cert.Pre_finite_inputs.S_.Idx := ⟨fun a b => funext fun d => d.elim0⟩
  -- At that one index the predicate is a conjunction of four "all elements" tests, each of which is 1.
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, _⟩ := IntOp.andi_eq_one.1 h12
  -- A conjunction over all elements that is 1 met a 1 at every element.
  have a1 := Host.reduce_andi_all _ _ _ _ ix0 h1
  have a3 := Host.reduce_andi_all _ _ _ _ ix0 h3
  have a4 := Host.reduce_andi_all _ _ _ _ ix0 h4
  refine ⟨fun j => ?_, fun i => ?_⟩
  · -- Logits: the scalar broadcast everywhere is the pattern of +∞, and |x j| < +∞ makes x j real.
    have hb : broadcastInDim Cert.Pre_finite_inputs.S16777216x3 ![] Cert.Pre_finite_inputs.Facts.bcast_S_S16777216x3
        (constant (F := Ideal) Cert.Pre_finite_inputs.S_ .f32 0x7F800000#32) j = (⊤ : EReal) := by
      rw [StableHlo.Predicate.bcast_scalar _ Cert.Pre_finite_inputs.Facts.h_S_]
      show Ideal.ofBits .f32 0x7F800000#32 = ⊤
      simp [Ideal.ofBits, Ideal.ieee]
    have e : Ideal.cmp .olt (max (x j) (-(x j)))
        (broadcastInDim Cert.Pre_finite_inputs.S16777216x3 ![] Cert.Pre_finite_inputs.Facts.bcast_S_S16777216x3
          (constant (F := Ideal) Cert.Pre_finite_inputs.S_ .f32 0x7F800000#32) j) = 1#1 := a1 j
    rw [hb] at e
    exact real_of_abs_lt_top _ e
  · -- Labels: the two broadcast scalars are the words 0 and 3, so 0 ≤ l i < 3 as signed integers.
    have hb0 : broadcastInDim Cert.Pre_finite_inputs.S16777216 ![] Cert.Pre_finite_inputs.Facts.bcast_S_S16777216
        (constantI Cert.Pre_finite_inputs.S_ 32 0#32) (ix1 i) = 0#32 :=
      StableHlo.Predicate.bcast_scalar _ Cert.Pre_finite_inputs.Facts.h_S_ _ _
    have hb3 : broadcastInDim Cert.Pre_finite_inputs.S16777216 ![] Cert.Pre_finite_inputs.Facts.bcast_S_S16777216
        (constantI Cert.Pre_finite_inputs.S_ 32 3#32) (ix1 i) = 3#32 :=
      StableHlo.Predicate.bcast_scalar _ Cert.Pre_finite_inputs.Facts.h_S_ _ _
    have e3 : IntOp.cmpi .sge (l (ix1 i))
        (broadcastInDim Cert.Pre_finite_inputs.S16777216 ![] Cert.Pre_finite_inputs.Facts.bcast_S_S16777216
          (constantI Cert.Pre_finite_inputs.S_ 32 0#32) (ix1 i)) = 1#1 := a3 (ix1 i)
    have e4 : IntOp.cmpi .slt (l (ix1 i))
        (broadcastInDim Cert.Pre_finite_inputs.S16777216 ![] Cert.Pre_finite_inputs.Facts.bcast_S_S16777216
          (constantI Cert.Pre_finite_inputs.S_ 32 3#32) (ix1 i)) = 1#1 := a4 (ix1 i)
    rw [hb0] at e3
    rw [hb3] at e4
    exact label_cases _ e3 e4

end Cert.PreFacts

end
-- ==== Proof.Spec.lean ====
/-
  The group-weighted cross-entropy loss as mathematics, independent of either program.

  A sample has three class logits a, b, c (extended reals) and a label word l. Its cross-entropy is taken in the
  shifted form  log (e^(a-M) + e^(b-M) + e^(c-M)) - (pick - M)  with  M = max a b c  and  pick  the logit the label
  names. Its group word is 0 when the mean logit (a + b + c) / 3 lies below the threshold and 1 otherwise, and its
  subgroup word is  3 * group + label.  The three results are sums over all samples: per subgroup, per group, and the
  grand total, the last two combined with the group weights into one scalar.

  Two facts about these sums carry the certificate and are proved here over the extended reals, where addition is
  commutative and associative without any finiteness: the three subgroup sums of a group add up to the group's sum
  when every label is 0, 1 or 2; and the two group sums add up to the grand total, because a group word is 0 or 1.
-/
import Idealize.ShloMosaic.PureOps.Ideal
import Idealize.ShloMosaic.PureOps.Ideal.Laws
import Idealize.ShloMosaic.Lib.ValueIdx

noncomputable section

namespace Cert.GroupLoss

open Idealize.ShloMosaic Idealize.ShloMosaic.ValueIdx

/-! ## One sample -/

/-- The largest of the three logits. -/
def top3 (a b c : EReal) : EReal := max (max a b) c

/-- The logit the label names: class 0 for the word 0, class 1 for the word 1, class 2 for every other word. -/
def pick (a b c : EReal) (l : BitVec 32) : EReal :=
  Scalar.select (IntOp.cmpi .eq l 0#32) a (Scalar.select (IntOp.cmpi .eq l 1#32) b c)

/-- The sample's cross-entropy, shifted by the largest logit. -/
def ce (a b c : EReal) (l : BitVec 32) : EReal :=
  Ideal.log ((Ideal.exp (a - top3 a b c) + Ideal.exp (b - top3 a b c)) + Ideal.exp (c - top3 a b c))
    - (pick a b c l - top3 a b c)

/-- The sample's group word: 0 when its mean logit is below the threshold, else 1. -/
def grp (a b c : EReal) : BitVec 32 :=
  Scalar.select (FloatOps.cmpf (F := Ideal) (φ := .f32) .olt
      (Ideal.div ((a + b) + c) (Ideal.ofBits .f32 0x40400000#32)) (Ideal.ofBits .f32 0x3ECCCCCD#32)) 0#32 1#32

/-- The sample's subgroup word: three times the group word plus the label. -/
def sub (a b c : EReal) (l : BitVec 32) : BitVec 32 := IntOp.addi (IntOp.muli (grp a b c) 3#32) l

/-- A group word is 0 or 1. -/
theorem grp_cases (a b c : EReal) : grp a b c = 0#32 ∨ grp a b c = 1#32 := by
  unfold grp Scalar.select
  split
  · exact Or.inl rfl
  · exact Or.inr rfl

/-- With a label among 0, 1, 2 the subgroup word determines group and label: it is 3k + j exactly when the group is k
    and the label is j. -/
theorem sub_eq_iff (a b c : EReal) (l : BitVec 32) (hl : l = 0#32 ∨ l = 1#32 ∨ l = 2#32) (k : Fin 2) (j : Fin 3) :
    sub a b c l = BitVec.ofNat 32 (3 * k.val + j.val) ↔ grp a b c = BitVec.ofNat 32 k.val ∧ l = BitVec.ofNat 32 j.val := by
  unfold sub
  rcases grp_cases a b c with hg | hg <;> rw [hg] <;> rcases hl with rfl | rfl | rfl <;>
    fin_cases k <;> fin_cases j <;> decide

/-! ## All samples -/

/-- The logits array [16777216, 3] and the labels array [16777216], as functions of their indices. -/
abbrev Logits := (⟨2, ![16777216, 3]⟩ : Shape).Idx → EReal
abbrev Labels := (⟨1, ![16777216]⟩ : Shape).Idx → BitVec 32

variable (x : Logits) (l : Labels)

def ceAt (i : Fin 16777216) : EReal :=
  ce (x (ix2 i (0 : Fin 3))) (x (ix2 i (1 : Fin 3))) (x (ix2 i (2 : Fin 3))) (l (ix1 i))
def grpAt (i : Fin 16777216) : BitVec 32 :=
  grp (x (ix2 i (0 : Fin 3))) (x (ix2 i (1 : Fin 3))) (x (ix2 i (2 : Fin 3)))
def subAt (i : Fin 16777216) : BitVec 32 :=
  sub (x (ix2 i (0 : Fin 3))) (x (ix2 i (1 : Fin 3))) (x (ix2 i (2 : Fin 3))) (l (ix1 i))

/-- The loss collected by the subgroup whose word is b. -/
def subLoss (b : BitVec 32) : EReal := ∑ i : Fin 16777216, if subAt x l i = b then ceAt x l i else 0
/-- The loss collected by the group whose word is k. -/
def grpLoss (k : BitVec 32) : EReal := ∑ i : Fin 16777216, if grpAt x i = k then ceAt x l i else 0
/-- The loss of all samples. -/
def total : EReal := ∑ i : Fin 16777216, ceAt x l i

/-- A group's three subgroups partition it, the labels being 0, 1 or 2. -/
theorem subLoss_add_three (hl : ∀ i : Fin 16777216, l (ix1 i) = 0#32 ∨ l (ix1 i) = 1#32 ∨ l (ix1 i) = 2#32) (k : Fin 2) :
    (subLoss x l (BitVec.ofNat 32 (3 * k.val + 0)) + subLoss x l (BitVec.ofNat 32 (3 * k.val + 1)))
      + subLoss x l (BitVec.ofNat 32 (3 * k.val + 2)) = grpLoss x l (BitVec.ofNat 32 k.val) := by
  unfold subLoss grpLoss
  rw [← Finset.sum_add_distrib, ← Finset.sum_add_distrib]
  refine Finset.sum_congr rfl fun i _ => ?_
  have h0 : subAt x l i = BitVec.ofNat 32 (3 * k.val + 0) ↔ grpAt x i = BitVec.ofNat 32 k.val ∧ l (ix1 i) = 0#32 :=
    sub_eq_iff (x (ix2 i (0 : Fin 3))) (x (ix2 i (1 : Fin 3))) (x (ix2 i (2 : Fin 3))) (l (ix1 i)) (hl i) k 0
  have h1 : subAt x l i = BitVec.ofNat 32 (3 * k.val + 1) ↔ grpAt x i = BitVec.ofNat 32 k.val ∧ l (ix1 i) = 1#32 :=
    sub_eq_iff (x (ix2 i (0 : Fin 3))) (x (ix2 i (1 : Fin 3))) (x (ix2 i (2 : Fin 3))) (l (ix1 i)) (hl i) k 1
  have h2 : subAt x l i = BitVec.ofNat 32 (3 * k.val + 2) ↔ grpAt x i = BitVec.ofNat 32 k.val ∧ l (ix1 i) = 2#32 :=
    sub_eq_iff (x (ix2 i (0 : Fin 3))) (x (ix2 i (1 : Fin 3))) (x (ix2 i (2 : Fin 3))) (l (ix1 i)) (hl i) k 2
  by_cases hg : grpAt x i = BitVec.ofNat 32 k.val
  · rw [if_pos hg]
    rcases hl i with e | e | e
    · rw [if_pos (h0.mpr ⟨hg, e⟩), if_neg (fun h => absurd ((h1.mp h).2.symm.trans e) (by decide)),
        if_neg (fun h => absurd ((h2.mp h).2.symm.trans e) (by decide)), add_zero, add_zero]
    · rw [if_neg (fun h => absurd ((h0.mp h).2.symm.trans e) (by decide)), if_pos (h1.mpr ⟨hg, e⟩),
        if_neg (fun h => absurd ((h2.mp h).2.symm.trans e) (by decide)), zero_add, add_zero]
    · rw [if_neg (fun h => absurd ((h0.mp h).2.symm.trans e) (by decide)),
        if_neg (fun h => absurd ((h1.mp h).2.symm.trans e) (by decide)), if_pos (h2.mpr ⟨hg, e⟩), zero_add, zero_add]
  · rw [if_neg hg, if_neg (fun h => hg (h0.mp h).1), if_neg (fun h => hg (h1.mp h).1), if_neg (fun h => hg (h2.mp h).1),
      add_zero, add_zero]

/-- The two groups partition the samples. -/
theorem grpLoss_add_two : grpLoss x l 0#32 + grpLoss x l 1#32 = total x l := by
  unfold grpLoss total
  rw [← Finset.sum_add_distrib]
  refine Finset.sum_congr rfl fun i _ => ?_
  rcases grp_cases (x (ix2 i (0 : Fin 3))) (x (ix2 i (1 : Fin 3))) (x (ix2 i (2 : Fin 3))) with h | h
  · rw [show grpAt x i = 0#32 from h, if_pos rfl, if_neg (by decide), add_zero]
  · rw [show grpAt x i = 1#32 from h, if_neg (by decide), if_pos rfl, zero_add]

/-! ## The three results -/

/-- The subgroup losses, one per subgroup word 0 … 5. -/
def outSub : (⟨1, ![6]⟩ : Shape).Idx → EReal := fun j => subLoss x l (BitVec.ofNat 32 (j 0).val)
/-- The group losses, one per group word 0, 1. -/
def outGrp : (⟨1, ![2]⟩ : Shape).Idx → EReal := fun k => grpLoss x l (BitVec.ofNat 32 (k 0).val)
/-- The combined loss: 0.7 (as f32) times the mean loss plus 0.3 (as f32) times the group losses weighted by w. -/
def outAll (w : (⟨1, ![2]⟩ : Shape).Idx → EReal) : (⟨0, ![]⟩ : Shape).Idx → EReal := fun _ =>
  Ideal.ofBits .f32 0x3F333333#32 * Ideal.div (total x l) (Ideal.ofBits .f32 0x4B800000#32)
    + Ideal.ofBits .f32 0x3E99999A#32
      * (outGrp x l (ix1 (0 : Fin 2)) * w (ix1 (0 : Fin 2)) + outGrp x l (ix1 (1 : Fin 2)) * w (ix1 (1 : Fin 2)))

/-! ## Samples by block, row and lane

Read as a [131072, 128] arrangement cut into 128 blocks of 1024 rows, sample number (1024 t + r) * 128 + q sits in block
t, row r, lane q; every sample sits in exactly one such place, so a sum over blocks, rows and lanes is the sum over all
samples. -/

/-- The sample in row r, lane q of block t. -/
def sampleOf (t : Fin 128) (r : Fin 1024) (q : Fin 128) : Fin 16777216 :=
  ⟨(1024 * t.val + r.val) * 128 + q.val, by have := t.isLt; have := r.isLt; have := q.isLt; omega⟩

/-- Blocks, rows and lanes number the samples one to one. -/
def sampleEquiv : (Fin 128 × Fin 1024) × Fin 128 ≃ Fin 16777216 :=
  ((Equiv.prodCongr finProdFinEquiv (Equiv.refl (Fin 128))).trans finProdFinEquiv).trans (finCongr (by norm_num))

theorem sampleEquiv_apply (t : Fin 128) (r : Fin 1024) (q : Fin 128) : sampleEquiv ((t, r), q) = sampleOf t r q := by
  apply Fin.ext
  simp only [sampleEquiv, sampleOf, Equiv.trans_apply, Equiv.prodCongr_apply, Prod.map_apply, Equiv.refl_apply,
    finProdFinEquiv_apply_val, finCongr_apply, Fin.coe_cast]
  omega

theorem sum_sampleOf {M : Type*} [AddCommMonoid M] (f : Fin 16777216 → M) :
    ∑ t : Fin 128, ∑ r : Fin 1024, ∑ q : Fin 128, f (sampleOf t r q) = ∑ i : Fin 16777216, f i := by
  rw [← Equiv.sum_comp sampleEquiv f, Fintype.sum_prod_type, Fintype.sum_prod_type]
  refine Finset.sum_congr rfl fun t _ => Finset.sum_congr rfl fun r _ => Finset.sum_congr rfl fun q _ => ?_
  rw [sampleEquiv_apply]

end Cert.GroupLoss

end
-- ==== Proof.KernelRow.lean ====
/-
  The row of six subgroup sums one grid point stores, as a value: over what the accumulator row held, bin b gains the sum,
  over the block's 1024 rows and 128 lanes, of the cross-entropies of the samples whose subgroup word is b.
-/
import proofs.«426219_j71717363908861_3_alg».proof.Proof.Gen.KernelIdeal.Skeleton
import proofs.«426219_j71717363908861_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Row

open Idealize.ShloMosaic Idealize.ShloMosaic.ValueIdx Cert.KernelIdeal Cert.KernelIdeal.Gen

variable {F : FTy → Type} [FloatOps F]

/-- What the body stores into the [1, 1, 6] accumulator row, as a function of the three class-plane blocks, the label
    block and the row's contents before the store. -/
def stored (x0 x1 x2 : Vec F S1024x128 .f32) (x3 : Vec F S1024x128 .i32) (acc : Vec F S1x1x6 .f32) : FVec F S1x1x6 .f32 :=
  k0_pay1
    (k0_pay14 (k0_pay7 x0 x1 x2 x3) (k0_pay10 (k0_pay6 x3) (k0_pay8 x0 x1 x2) k0_pay9) (iota .tc S1x6 32 [1] iota_S1x6_d1_w32)
      (k0_pay11 (k0_pay6 x3) (k0_pay7 x0 x1 x2 x3) (k0_pay8 x0 x1 x2) k0_pay9) (k0_pay12 (k0_pay6 x3) (k0_pay7 x0 x1 x2 x3) (k0_pay8 x0 x1 x2) k0_pay9) k0_pay13)
    (k0_pay15 (k0_pay7 x0 x1 x2 x3) (k0_pay10 (k0_pay6 x3) (k0_pay8 x0 x1 x2) k0_pay9))
    (k0_pay16 (iota .tc S1x6 32 [1] iota_S1x6_d1_w32))
    acc

/-! ## One sample: the three pointwise values

At every place of the block the cross-entropy, the group word and the subgroup word the body computes are the
specification's functions of that place's three logits and label. -/

/-- The body's cross-entropy block is the specification's cross-entropy, place by place. -/
theorem pay7_apply (x0 x1 x2 : Vec Ideal S1024x128 .f32) (x3 : Vec Ideal S1024x128 .i32) (j : S1024x128.Idx) :
    k0_pay7 (F := Ideal) x0 x1 x2 x3 j = Cert.GroupLoss.ce (x0 j) (x1 j) (x2 j) (x3 j) := by
  unfold k0_pay7 k0_pay3 k0_pay4 k0_pay5 k0_pay6
  simp only [shapeCast_self]
  rfl

/-- The body's group-word block is the specification's group word, place by place. -/
theorem pay8_apply (x0 x1 x2 : Vec Ideal S1024x128 .f32) (j : S1024x128.Idx) :
    k0_pay8 (F := Ideal) x0 x1 x2 j = Cert.GroupLoss.grp (x0 j) (x1 j) (x2 j) := by
  unfold k0_pay8 k0_pay3 k0_pay4 k0_pay5
  simp only [shapeCast_self]
  rfl

/-- The body's subgroup-word block is the specification's subgroup word, place by place. -/
theorem pay10_apply (x0 x1 x2 : Vec Ideal S1024x128 .f32) (x3 : Vec Ideal S1024x128 .i32) (j : S1024x128.Idx) :
    k0_pay10 (k0_pay6 (F := Ideal) x3) (k0_pay8 (F := Ideal) x0 x1 x2) k0_pay9 j
      = Cert.GroupLoss.sub (x0 j) (x1 j) (x2 j) (x3 j) := by
  unfold k0_pay10 k0_pay9 k0_pay6 Cert.GroupLoss.sub
  simp only [shapeCast_self]
  rw [← pay8_apply]
  rfl

/-! ## One bin: its scalar and its one-hot row -/

/-- A block summed over its lanes and then over its rows is the double sum of its entries. -/
theorem bin_scalar (v : FVec Ideal S1024x128 .f32) :
    shapeCast S1x1 (multiReduction (F := Ideal) .add [0] S1
        (shapeCast S1024x1 (multiReduction (F := Ideal) .add [1] S1024 v 0x00000000#32 reduces_S1024x128_S1024 (.inl rfl) rfl)
          shapeCasts_S1024_S1024x1)
        0x00000000#32 reduces_S1024x1_S1 (.inl rfl) rfl) shapeCasts_S1_S1x1 (ix2 (0 : Fin 1) (0 : Fin 1))
      = ∑ r : Fin 1024, ∑ q : Fin 128, v (ix2 r q) := by
  refine (shapeCast_apply _ _ _ (ix1 (0 : Fin 1)) (by rw [Shape.rowMajor_val_one, Shape.rowMajor_val_two]; rfl)).trans ?_
  refine (Ideal.multiReduction_add_single _ _ _ _ _ _).trans ?_
  refine Finset.sum_congr rfl fun (r : Fin 1024) _ => ?_
  have e1 : reduces_S1024x1_S1.lift (ix1 (0 : Fin 1)) r = ix2 r (0 : Fin 1) :=
    Shape.idx_ext₂ rfl rfl
  rw [e1]
  refine (shapeCast_apply _ _ _ (ix1 r) (by rw [Shape.rowMajor_val_one, Shape.rowMajor_val_two]; show r.val = r.val * 1 + 0; omega)).trans ?_
  refine (Ideal.multiReduction_add_single _ _ _ _ _ _).trans ?_
  refine Finset.sum_congr rfl fun (q : Fin 128) _ => ?_
  exact congrArg v (Shape.idx_ext₂ rfl rfl)

/-- The [1, 1] value of bin k: the entries of ce at the places where the word block holds k, all others replaced by
    zero, summed over lanes and then rows. -/
def binVal (ce : FVec Ideal S1024x128 .f32) (w : IVec S1024x128 32) (k : BitVec 32) : FVec Ideal S1x1 .f32 :=
  shapeCast S1x1 (multiReduction (F := Ideal) .add [0] S1
      (shapeCast S1024x1
        (multiReduction (F := Ideal) .add [1] S1024
          (select (cmpi .eq w (broadcast S1024x128 k)) ce (broadcast S1024x128 (Scalar.ofBits (F := Ideal) .f32 0x00000000#32)))
          0x00000000#32 reduces_S1024x128_S1024 (.inl rfl) rfl)
        shapeCasts_S1024_S1024x1)
      0x00000000#32 reduces_S1024x1_S1 (.inl rfl) rfl) shapeCasts_S1_S1x1

/-- Bin k's value is the sum, over rows and lanes, of the entries whose word is k. -/
theorem binVal_apply (ce : FVec Ideal S1024x128 .f32) (w : IVec S1024x128 32) (k : BitVec 32) :
    binVal ce w k (ix2 (0 : Fin 1) (0 : Fin 1))
      = ∑ r : Fin 1024, ∑ q : Fin 128, if w (ix2 r q) = k then ce (ix2 r q) else 0 := by
  unfold binVal
  refine (bin_scalar _).trans ?_
  refine Finset.sum_congr rfl fun r _ => Finset.sum_congr rfl fun q _ => ?_
  show Scalar.select (IntOp.cmpi .eq (w (ix2 r q)) k) (ce (ix2 r q)) (Ideal.ofBits .f32 0x00000000#32) = _
  rw [Ideal.ofBits_zero_f32]
  by_cases h : w (ix2 r q) = k
  · rw [if_pos h, IntOp.cmpi_eq.mpr h, select_one]
  · rw [if_neg h, eq_zero_of_ne_one (fun hh => h (IntOp.cmpi_eq.mp hh)), select_zero]

/-- The one-hot row of bin k: at column b it is 1 when b is k and 0 otherwise. -/
theorem onehot_apply (k : BitVec 32) (b : Fin 6) :
    (sitofp .f32 (extui 32 (cmpi .eq (iota .tc S1x6 32 [1] iota_S1x6_d1_w32) (broadcast S1x6 k)) natLt_1_32) : FVec Ideal S1x6 .f32)
        (ix2 (0 : Fin 1) b)
      = if BitVec.ofNat 32 b.val = k then ((1 : ℝ) : EReal) else 0 := by
  show (((BitVec.setWidth 32 (IntOp.cmpi .eq (iota .tc S1x6 32 [1] iota_S1x6_d1_w32 (ix2 (0 : Fin 1) b)) k)).toInt : ℝ) : EReal) = _
  rw [iota_single_apply]
  show (((BitVec.setWidth 32 (IntOp.cmpi .eq (BitVec.ofNat 32 b.val) k)).toInt : ℝ) : EReal) = _
  by_cases h : BitVec.ofNat 32 b.val = k
  · rw [if_pos h, IntOp.cmpi_eq.mpr h]
    norm_num
  · rw [if_neg h, eq_zero_of_ne_one (fun hh => h (IntOp.cmpi_eq.mp hh))]
    norm_num

/-- The [1, 6] row bin k contributes: its value spread over the six columns, times its one-hot row. -/
def binRow (s : FVec Ideal S1x1 .f32) (k : BitVec 32) : FVec Ideal S1x6 .f32 :=
  mulf (broadcastTo S1x6 s broadcasts_S1x1_S1x6)
    (sitofp .f32 (extui 32 (cmpi .eq (iota .tc S1x6 32 [1] iota_S1x6_d1_w32) (broadcast S1x6 k)) natLt_1_32))

/-- Bin k's row holds its value in column k and zero elsewhere. -/
theorem binRow_apply (s : FVec Ideal S1x1 .f32) (k : BitVec 32) (b : Fin 6) :
    binRow s k (ix2 (0 : Fin 1) b) = if BitVec.ofNat 32 b.val = k then s (ix2 (0 : Fin 1) (0 : Fin 1)) else 0 := by
  unfold binRow
  show broadcastTo S1x6 s broadcasts_S1x1_S1x6 (ix2 (0 : Fin 1) b) * _ = _
  rw [onehot_apply, broadcastTo_apply s broadcasts_S1x1_S1x6 (ix2 (0 : Fin 1) b) (ix2 (0 : Fin 1) (0 : Fin 1))
    (fun a => match a with | ⟨0, _⟩ => rfl | ⟨1, _⟩ => rfl)]
  by_cases h : BitVec.ofNat 32 b.val = k
  · rw [if_pos h, if_pos h, EReal.coe_one, mul_one]
  · rw [if_neg h, if_neg h, mul_zero]

/-! ## The six bins together -/

/-- Six one-column rows added onto zero, read at column b, leave the value of bin b. -/
theorem hot_sum (S : BitVec 32 → EReal) (b : Fin 6) :
    ((((((Ideal.ofBits .f32 0x00000000#32
        + (if BitVec.ofNat 32 b.val = 0#32 then S 0#32 else 0))
        + (if BitVec.ofNat 32 b.val = 1#32 then S 1#32 else 0))
        + (if BitVec.ofNat 32 b.val = 2#32 then S 2#32 else 0))
        + (if BitVec.ofNat 32 b.val = 3#32 then S 3#32 else 0))
        + (if BitVec.ofNat 32 b.val = 4#32 then S 4#32 else 0))
        + (if BitVec.ofNat 32 b.val = 5#32 then S 5#32 else 0)) = S (BitVec.ofNat 32 b.val) := by
  rw [Ideal.ofBits_zero_f32]
  fin_cases b <;> simp

/-- The stored row written out: the accumulator row plus the six bins' rows added left to right onto a zero row. -/
theorem stored_eq (x0 x1 x2 : Vec Ideal S1024x128 .f32) (x3 : Vec Ideal S1024x128 .i32) (acc : Vec Ideal S1x1x6 .f32) :
    stored (F := Ideal) x0 x1 x2 x3 acc
      = shapeCast S1x1x6
          (addf (shapeCast S1x6 acc shapeCasts_S1x1x6_S1x6)
            (addf (addf (addf (addf (addf (addf (broadcast S1x6 (Scalar.ofBits (F := Ideal) .f32 0x00000000#32))
              (binRow (binVal (k0_pay7 x0 x1 x2 x3) (k0_pay10 (k0_pay6 (F := Ideal) x3) (k0_pay8 x0 x1 x2) k0_pay9) 0#32) 0#32))
              (binRow (binVal (k0_pay7 x0 x1 x2 x3) (k0_pay10 (k0_pay6 (F := Ideal) x3) (k0_pay8 x0 x1 x2) k0_pay9) 1#32) 1#32))
              (binRow (binVal (k0_pay7 x0 x1 x2 x3) (k0_pay10 (k0_pay6 (F := Ideal) x3) (k0_pay8 x0 x1 x2) k0_pay9) 2#32) 2#32))
              (binRow (binVal (k0_pay7 x0 x1 x2 x3) (k0_pay10 (k0_pay6 (F := Ideal) x3) (k0_pay8 x0 x1 x2) k0_pay9) 3#32) 3#32))
              (binRow (binVal (k0_pay7 x0 x1 x2 x3) (k0_pay10 (k0_pay6 (F := Ideal) x3) (k0_pay8 x0 x1 x2) k0_pay9) 4#32) 4#32))
              (binRow (binVal (k0_pay7 x0 x1 x2 x3) (k0_pay10 (k0_pay6 (F := Ideal) x3) (k0_pay8 x0 x1 x2) k0_pay9) 5#32) 5#32)))
          shapeCasts_S1x6_S1x1x6 := rfl

/-- THE STORED ROW AT BIN `b`, over the extended reals: the accumulator's entry plus the block's masked sum. -/
theorem stored_apply (x0 x1 x2 : Vec Ideal S1024x128 .f32) (x3 : Vec Ideal S1024x128 .i32) (acc : Vec Ideal S1x1x6 .f32)
    (b : Fin 6) :
    stored (F := Ideal) x0 x1 x2 x3 acc (ix3 (0 : Fin 1) (0 : Fin 1) b)
      = acc (ix3 (0 : Fin 1) (0 : Fin 1) b) + ∑ r : Fin 1024, ∑ q : Fin 128,
          if Cert.GroupLoss.sub (x0 (ix2 r q)) (x1 (ix2 r q)) (x2 (ix2 r q)) (x3 (ix2 r q)) = BitVec.ofNat 32 b.val
          then Cert.GroupLoss.ce (x0 (ix2 r q)) (x1 (ix2 r q)) (x2 (ix2 r q)) (x3 (ix2 r q)) else 0 := by
  refine (congrFun (stored_eq x0 x1 x2 x3 acc) _).trans ?_
  refine (shapeCast_ab_1ab_apply _ _ (0 : Fin 1) (0 : Fin 1) b).trans ?_
  simp only [addf_apply, broadcast_apply, binRow_apply, binVal_apply, shapeCast_1ab_ab_apply, pay7_apply, pay10_apply]
  exact congrArg (acc (ix3 (0 : Fin 1) (0 : Fin 1) b) + ·)
    (hot_sum (fun k => ∑ r : Fin 1024, ∑ q : Fin 128,
      if Cert.GroupLoss.sub (x0 (ix2 r q)) (x1 (ix2 r q)) (x2 (ix2 r q)) (x3 (ix2 r q)) = k
      then Cert.GroupLoss.ce (x0 (ix2 r q)) (x1 (ix2 r q)) (x2 (ix2 r q)) (x3 (ix2 r q)) else 0) b)

end Cert.KernelIdeal.Row

end
-- ==== Proof.KernelBlocks.lean ====
/-
  The blocks the kernel's four input windows hold at a grid point, read at an element: point t of the 2 × 64 grid fetches
  rows 1024 t … 1024 t + 1023 of each [131072, 128] plane, and the planes are the logits' three classes and the labels laid
  out 128 samples to a row, so row r, lane q of the block is sample (1024 t + r) * 128 + q.
-/
import proofs.«426219_j71717363908861_3_alg».proof.Proof.Gen.KernelIdeal.Frame
import proofs.«426219_j71717363908861_3_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-! ## The planes as the region finds them

Each logit plane is the argument array laid out as [131072, 128, 3], cut to one class on the last axis, with the unit
axis dropped; the labels' plane is the label array laid out as [131072, 128]. Row-major positions are kept by every
re-layout, so entry (ρ, q) of a plane is the argument's entry at sample 128 ρ + q. -/

/-- One class of the [16777216, 3] array as a [131072, 128] plane, read at an entry: the entry (ρ, q) is the array at
    sample i = 128 ρ + q and that class. The position (ρ * 128 + q) * 1 + 0 of the plane with its unit axis is
    ρ * 128 + q; the cut shifts the class coordinate 0 by the class; the position ((ρ * 128 + q) * 3 + class) in the
    three-axis layout is i * 3 + class in the two-axis one. -/
theorem plane_apply {α : Type} (x : S16777216x3.Idx → α) (cls : Fin 3) (off : Fin 3 → Nat) (hoff : off = ![0, 0, cls.val])
    (hs : S131072x128x3.Slices off S131072x128x1) (k : S131072x128.Idx) (i : Fin 16777216)
    (h : i.val = (k 0).val * 128 + (k 1).val) :
    shapeCast S131072x128 (extractStridedSlice S131072x128x1 off
        (shapeCast S131072x128x3 x shapeCasts_S16777216x3_S131072x128x3) hs) shapeCasts_S131072x128x1_S131072x128 k
      = x (ix2 i cls) := by
  subst hoff
  obtain ⟨ρ, q, rfl⟩ : ∃ (ρ : Fin 131072) (q : Fin 128), k = ix2 ρ q := ⟨k 0, k 1, eq_ix2 k⟩
  have h' : i.val = ρ.val * 128 + q.val := h
  refine (shapeCast_apply _ shapeCasts_S131072x128x1_S131072x128 (ix2 ρ q) (ix3 ρ q (0 : Fin 1)) ?_).trans ?_
  · rw [Shape.rowMajor_val_three, Shape.rowMajor_val_two]
    show (ρ.val * 128 + q.val) * 1 + 0 = ρ.val * 128 + q.val
    omega
  refine (extractStridedSlice_apply _ _ hs (ix3 ρ q (0 : Fin 1)) (ix3 ρ q cls) ?_).trans ?_
  · intro a
    match a with
    | ⟨0, _⟩ => show ρ.val = 0 + ρ.val; omega
    | ⟨1, _⟩ => show q.val = 0 + q.val; omega
    | ⟨2, _⟩ => show cls.val = cls.val + 0; omega
  refine shapeCast_apply _ shapeCasts_S16777216x3_S131072x128x3 (ix3 ρ q cls) (ix2 i cls) ?_
  rw [Shape.rowMajor_val_two, Shape.rowMajor_val_three]
  show i.val * 3 + cls.val = (ρ.val * 128 + q.val) * 3 + cls.val
  omega

/-- The class-0 plane is the logits re-laid, cut to class 0, the unit axis dropped. -/
theorem plane0_eq (c : Dev nD) :
    (V m c main_v2 : S131072x128.Idx → Elt F .f32)
      = shapeCast S131072x128 (extractStridedSlice S131072x128x1 ![0, 0, 0]
          (shapeCast S131072x128x3 (m ((c : Thread nD τ).loc main_arg0) : S16777216x3.Idx → Elt F .f32) shapeCasts_S16777216x3_S131072x128x3)
          slices_S131072x128x3_S131072x128x1_0_0_0) shapeCasts_S131072x128x1_S131072x128 := by
  show StableHlo.after (List.flatten [hostOps0]) (fun b => m (c, b)) (Proc.devRef .tc main_v2) = _
  simp only [List.flatten_cons, List.flatten_nil, List.append_nil]
  after_results
  rfl

/-- The class-1 plane is the logits re-laid, cut to class 1, the unit axis dropped. -/
theorem plane1_eq (c : Dev nD) :
    (V m c main_v4 : S131072x128.Idx → Elt F .f32)
      = shapeCast S131072x128 (extractStridedSlice S131072x128x1 ![0, 0, 1]
          (shapeCast S131072x128x3 (m ((c : Thread nD τ).loc main_arg0) : S16777216x3.Idx → Elt F .f32) shapeCasts_S16777216x3_S131072x128x3)
          slices_S131072x128x3_S131072x128x1_0_0_1) shapeCasts_S131072x128x1_S131072x128 := by
  show StableHlo.after (List.flatten [hostOps0]) (fun b => m (c, b)) (Proc.devRef .tc main_v4) = _
  simp only [List.flatten_cons, List.flatten_nil, List.append_nil]
  after_results
  rfl

/-- The class-2 plane is the logits re-laid, cut to class 2, the unit axis dropped. -/
theorem plane2_eq (c : Dev nD) :
    (V m c main_v6 : S131072x128.Idx → Elt F .f32)
      = shapeCast S131072x128 (extractStridedSlice S131072x128x1 ![0, 0, 2]
          (shapeCast S131072x128x3 (m ((c : Thread nD τ).loc main_arg0) : S16777216x3.Idx → Elt F .f32) shapeCasts_S16777216x3_S131072x128x3)
          slices_S131072x128x3_S131072x128x1_0_0_2) shapeCasts_S131072x128x1_S131072x128 := by
  show StableHlo.after (List.flatten [hostOps0]) (fun b => m (c, b)) (Proc.devRef .tc main_v6) = _
  simp only [List.flatten_cons, List.flatten_nil, List.append_nil]
  after_results
  rfl

/-- The labels' plane is the label array re-laid 128 samples to a row. -/
theorem plane3_eq (c : Dev nD) :
    (V m c main_v7 : S131072x128.Idx → Elt F .i32)
      = shapeCast S131072x128 (m ((c : Thread nD τ).loc main_arg1) : S16777216.Idx → Elt F .i32) shapeCasts_S16777216_S131072x128 := by
  show StableHlo.after (List.flatten [hostOps0]) (fun b => m (c, b)) (Proc.devRef .tc main_v7) = _
  simp only [List.flatten_cons, List.flatten_nil, List.append_nil]
  after_results
  rfl

/-- The labels' plane at an entry (ρ, q) is the label of sample i = 128 ρ + q: both are at row-major position i. -/
theorem plane3_apply (c : Dev nD) (k : S131072x128.Idx) (i : Fin 16777216) (h : i.val = (k 0).val * 128 + (k 1).val) :
    (V m c main_v7 : S131072x128.Idx → Elt F .i32) k = m ((c : Thread nD τ).loc main_arg1) (ix1 i) := by
  rw [plane3_eq]
  refine shapeCast_apply _ shapeCasts_S16777216_S131072x128 k (ix1 i) ?_
  rw [Shape.rowMajor_val_one, Shape.rowMajor_val_two]
  exact h

/-! ## Where a point's blocks sit

Point t of the grid, core t / 64 and step t % 64, fetches the block with row index 64 (t / 64) + t % 64 = t and
column index 0 of each plane: rows 1024 t … 1024 t + 1023, all 128 lanes. -/

theorem index0 : ∀ t : Fin grid0.N, win0_0.index t (0 : Fin 2) = t.val ∧ win0_0.index t (1 : Fin 2) = 0 := by decide +kernel
theorem index1 : ∀ t : Fin grid0.N, win0_1.index t (0 : Fin 2) = t.val ∧ win0_1.index t (1 : Fin 2) = 0 := by decide +kernel
theorem index2 : ∀ t : Fin grid0.N, win0_2.index t (0 : Fin 2) = t.val ∧ win0_2.index t (1 : Fin 2) = 0 := by decide +kernel
theorem index3 : ∀ t : Fin grid0.N, win0_3.index t (0 : Fin 2) = t.val ∧ win0_3.index t (1 : Fin 2) = 0 := by decide +kernel

/-! ## The blocks at an entry

Entry (r, q) of point t's block is the plane's entry (t * 1024 + r, 0 * 128 + q), whose sample is
(1024 t + r) * 128 + q. -/

/-- Class-0 plane: row r, lane q of point t's block is the class-0 logit of sample (1024 t + r) * 128 + q. -/
theorem iblk0_apply (c : Dev nD) (t : Fin cfg0.N) (r : Fin 1024) (q : Fin 128) :
    (iblk m c 0 t : Vec F S1024x128 .f32) (ix2 r q)
      = m ((c : Thread nD τ).loc main_arg0) (ix2 (Cert.GroupLoss.sampleOf (Fin.cast N_0 t) r q) (0 : Fin 3)) := by
  have hi := index0 t
  unfold iblk
  rw [View.read_apply]
  show (V m c main_v2 : S131072x128.Idx → Elt F .f32) _ = _
  rw [plane0_eq]
  refine plane_apply _ (0 : Fin 3) _ rfl _ _ _ ?_
  show (1024 * t.val + r.val) * 128 + q.val
    = (win0_0.index t 0 * 1024 + 1 * r.val) * 128 + (win0_0.index t 1 * 128 + 1 * q.val)
  rw [hi.1, hi.2]
  omega

/-- Class-1 plane. -/
theorem iblk1_apply (c : Dev nD) (t : Fin cfg0.N) (r : Fin 1024) (q : Fin 128) :
    (iblk m c 1 t : Vec F S1024x128 .f32) (ix2 r q)
      = m ((c : Thread nD τ).loc main_arg0) (ix2 (Cert.GroupLoss.sampleOf (Fin.cast N_0 t) r q) (1 : Fin 3)) := by
  have hi := index1 t
  unfold iblk
  rw [View.read_apply]
  show (V m c main_v4 : S131072x128.Idx → Elt F .f32) _ = _
  rw [plane1_eq]
  refine plane_apply _ (1 : Fin 3) _ rfl _ _ _ ?_
  show (1024 * t.val + r.val) * 128 + q.val
    = (win0_1.index t 0 * 1024 + 1 * r.val) * 128 + (win0_1.index t 1 * 128 + 1 * q.val)
  rw [hi.1, hi.2]
  omega

/-- Class-2 plane. -/
theorem iblk2_apply (c : Dev nD) (t : Fin cfg0.N) (r : Fin 1024) (q : Fin 128) :
    (iblk m c 2 t : Vec F S1024x128 .f32) (ix2 r q)
      = m ((c : Thread nD τ).loc main_arg0) (ix2 (Cert.GroupLoss.sampleOf (Fin.cast N_0 t) r q) (2 : Fin 3)) := by
  have hi := index2 t
  unfold iblk
  rw [View.read_apply]
  show (V m c main_v6 : S131072x128.Idx → Elt F .f32) _ = _
  rw [plane2_eq]
  refine plane_apply _ (2 : Fin 3) _ rfl _ _ _ ?_
  show (1024 * t.val + r.val) * 128 + q.val
    = (win0_2.index t 0 * 1024 + 1 * r.val) * 128 + (win0_2.index t 1 * 128 + 1 * q.val)
  rw [hi.1, hi.2]
  omega

/-- The labels' plane. -/
theorem iblk3_apply (c : Dev nD) (t : Fin cfg0.N) (r : Fin 1024) (q : Fin 128) :
    (iblk m c 3 t : Vec F S1024x128 .i32) (ix2 r q)
      = m ((c : Thread nD τ).loc main_arg1) (ix1 (Cert.GroupLoss.sampleOf (Fin.cast N_0 t) r q)) := by
  have hi := index3 t
  unfold iblk
  rw [View.read_apply]
  show (V m c main_v7 : S131072x128.Idx → Elt F .i32) _ = _
  refine plane3_apply m c _ _ ?_
  show (1024 * t.val + r.val) * 128 + q.val
    = (win0_3.index t 0 * 1024 + 1 * r.val) * 128 + (win0_3.index t 1 * 128 + 1 * q.val)
  rw [hi.1, hi.2]
  omega

end Cert.KernelIdeal.Blocks

end
-- ==== Proof.LibScatterAddBins.lean ====
/-
  An accumulating float scatter of N scalars into a vector of K bins, read at a bin, over the extended reals.

  `x.at[idx].add(upd)` of a vector `x : [K]` with one index per update (`idx : [N, 1]`, `upd : [N]`; also what
  `jax.ops.segment_sum` lowers to) prints as a scatter whose one operand axis is inserted and indexed by the start
  index. At the ideal instance the result at bin b is the operand's element plus the sum of the updates whose index
  word, read as a signed integer, is b; an update whose index is negative or at least K lands nowhere.

  The steps, each a lemma of its own: on the one operand axis the start of update j is the signed index word of row j
  (`binsDims_start`) and the window coordinate is 0, the axis being inserted (`binsDims_window`); so update j lands
  on bin b exactly when that signed word equals b (`binsDims_resultIdx?_eq_some_iff`); and the sum over the updates
  landing on b, taken over the indices of the update vector, is re-indexed over the numbers below N (`idx1Equiv`).
-/
import Idealize.ShloMosaic.PureOps.Ideal
import Idealize.ShloMosaic.Lib.ValueIdx

noncomputable section

namespace Idealize.ShloMosaic.ScatterAddBins

open Idealize.ShloMosaic Idealize.ShloMosaic.ValueIdx

/-- The dimension numbers of a scatter of N scalars into K bins: operand `[K]`, indices `[N, 1]`, updates `[N]`. -/
abbrev binsDims (K N : Nat) (wf : ScatterDims.WF ⟨1, ![K]⟩ ⟨2, ![N, 1]⟩ ⟨1, ![N]⟩ [] [0] [0] 1) :
    ScatterDims ⟨1, ![K]⟩ ⟨2, ![N, 1]⟩ ⟨1, ![N]⟩ where
  updateWindowDims := []
  insertedWindowDims := [0]
  scatterDimsToOperandDims := [0]
  indexVectorDim := 1
  wf := wf

/-- The start of update `j` on the one operand axis is the index word of row `j`, read as a signed integer: the
    start index's only component sits at `[j, 0]` of the scatter indices. -/
theorem binsDims_start {K N w : Nat} (wf : ScatterDims.WF ⟨1, ![K]⟩ ⟨2, ![N, 1]⟩ ⟨1, ![N]⟩ [] [0] [0] 1)
    (idx : IVec ⟨2, ![N, 1]⟩ w) (j : (⟨1, ![N]⟩ : Shape).Idx) (a : Fin 1) :
    (binsDims K N wf).start j idx a = (idx (ix2 (j 0) (0 : Fin 1))).toInt := by
  obtain rfl : a = 0 := Subsingleton.elim _ _
  unfold ScatterDims.start
  rw [dif_pos (show (0 : Fin 1) ∈ (binsDims K N wf).scatterDimsToOperandDims from List.mem_singleton.mpr rfl)]
  have hsi : (binsDims K N wf).siIdx j ⟨List.idxOf (0 : Fin 1) (binsDims K N wf).scatterDimsToOperandDims,
      List.idxOf_lt_length_iff.2 (List.mem_singleton.mpr rfl)⟩ = ix2 (j 0) (0 : Fin 1) := by
    funext c; refine Fin.ext ?_
    match c with
    | ⟨0, _⟩ => rfl
    | ⟨1, _⟩ => rfl
  rw [hsi]
  rfl

/-- The one operand axis is an inserted window axis, so every update's window coordinate on it is `0`. -/
theorem binsDims_window {K N : Nat} (wf : ScatterDims.WF ⟨1, ![K]⟩ ⟨2, ![N, 1]⟩ ⟨1, ![N]⟩ [] [0] [0] 1)
    (j : (⟨1, ![N]⟩ : Shape).Idx) (a : Fin 1) : (binsDims K N wf).window j a = 0 := by
  obtain rfl : a = 0 := Subsingleton.elim _ _
  unfold ScatterDims.window
  rw [dif_neg]
  intro h
  have h2 := (List.mem_filter.1 h).2
  simp at h2

/-- Update `j` lands on bin `b` exactly when its index word, read as a signed integer, is `b`: a word that is
    negative or at least `K` names no bin, and the update is dropped. -/
theorem binsDims_resultIdx?_eq_some_iff {K N w : Nat} (wf : ScatterDims.WF ⟨1, ![K]⟩ ⟨2, ![N, 1]⟩ ⟨1, ![N]⟩ [] [0] [0] 1)
    (idx : IVec ⟨2, ![N, 1]⟩ w) (j : (⟨1, ![N]⟩ : Shape).Idx) (b : Fin K) :
    (binsDims K N wf).resultIdx? j idx = some (ix1 b) ↔ (idx (ix2 (j 0) (0 : Fin 1))).toInt = (b.val : Int) := by
  have hb : b.val < K := b.isLt
  unfold ScatterDims.resultIdx?
  split_ifs with h
  · rw [Option.some.injEq]
    constructor
    · intro e
      have e0 := congrArg (fun f => (f 0).val) e
      simp only [binsDims_start, binsDims_window] at e0
      have h0 := h 0
      simp only [binsDims_start, binsDims_window] at h0
      change ((idx (ix2 (j 0) (0 : Fin 1))).toInt + ((0 : Nat) : Int)).toNat = b.val at e0
      omega
    · intro e
      funext a
      obtain rfl : a = 0 := Subsingleton.elim _ _
      refine Fin.ext ?_
      simp only [binsDims_start, binsDims_window]
      change ((idx (ix2 (j 0) (0 : Fin 1))).toInt + ((0 : Nat) : Int)).toNat = b.val
      omega
  · constructor
    · intro e; exact absurd e (by simp)
    · intro e
      exfalso
      apply h
      intro a
      simp only [binsDims_start, binsDims_window]
      obtain rfl : a = 0 := Subsingleton.elim _ _
      change 0 ≤ (idx (ix2 (j 0) (0 : Fin 1))).toInt + ((0 : Nat) : Int) ∧
        (idx (ix2 (j 0) (0 : Fin 1))).toInt + ((0 : Nat) : Int) < (K : Int)
      omega

/-- The indices of a vector of extent `N` are the numbers below `N`. -/
def idx1Equiv (N : Nat) : Fin N ≃ (⟨1, ![N]⟩ : Shape).Idx where
  toFun := fun i => ix1 i
  invFun := fun j => j 0
  left_inv := fun _ => rfl
  right_inv := fun j => (eq_ix1 j).symm

/-- THE BINNED SUM AT BIN `b`: the operand's element plus the sum of the updates whose index word is `b`. -/
theorem scatterAdd_bins_apply {K N w : Nat} (wf : ScatterDims.WF ⟨1, ![K]⟩ ⟨2, ![N, 1]⟩ ⟨1, ![N]⟩ [] [0] [0] 1)
    (x : (⟨1, ![K]⟩ : Shape).Idx → EReal) (idx : IVec ⟨2, ![N, 1]⟩ w) (upd : (⟨1, ![N]⟩ : Shape).Idx → EReal) (b : Fin K) :
    Ideal.hostScatterAdd (binsDims K N wf) x idx upd (ix1 b)
      = x (ix1 b) + ∑ i : Fin N, if (idx (ix2 i (0 : Fin 1))).toInt = (b.val : Int) then upd (ix1 i) else 0 := by
  unfold Ideal.hostScatterAdd
  refine congrArg (x (ix1 b) + ·) ?_
  rw [Finset.sum_filter]
  refine (Fintype.sum_equiv (idx1Equiv N) _ _ fun i => ?_).symm
  exact (if_congr (binsDims_resultIdx?_eq_some_iff wf idx (ix1 i) b) rfl rfl).symm

end Idealize.ShloMosaic.ScatterAddBins

end
-- ==== Proof.KernelValue.lean ====
/-
  The kernel's results, as mathematics.

  Each grid point adds, into a row of six accumulators kept per core, the block's masked sums of cross-entropies, one per
  subgroup word; the first point of a core's 64 resets the row. So after a core's last point the row holds, per subgroup,
  the sum over that core's 64 blocks; the host then adds the two cores' rows (the subgroup losses), adds each group's three
  subgroups (the group losses), and combines them with the weights. Block t, row r, lane q is sample
  (1024 t + r) * 128 + q, and every sample sits in exactly one such place, so the sums over blocks, rows and lanes are the
  sums over all samples of the specification.
-/
import proofs.«426219_j71717363908861_3_alg».proof.Proof.Gen.KernelIdeal.Frame
import proofs.«426219_j71717363908861_3_alg».proof.Proof.Spec
import proofs.«426219_j71717363908861_3_alg».proof.Proof.KernelRow
import proofs.«426219_j71717363908861_3_alg».proof.Proof.KernelBlocks
import proofs.«426219_j71717363908861_3_alg».proof.Proof.LibScatterAddBins
import Idealize.ShloMosaic.Lib.Pipeline.Value
import Idealize.ShloMosaic.Lib.StableHlo.Run
import Idealize.ShloMosaic.Lib.Tactic
import Idealize.ShloMosaic.PureOps.Ideal.Laws

set_option maxRecDepth 16384

noncomputable section

namespace Cert.KernelIdeal.KValue

open Idealize.ShloMosaic Idealize.ShloMosaic.TcCoe Idealize.ShloMosaic.Tactic Idealize.ShloMosaic.ValueIdx Idealize.SL.Sem
open Idealize.ShloMosaic.Pipeline (Dat)
open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- At a point that is not a core's first, the body leaves in the accumulator row, which held `xo4`, the stored row over
    `xo4`: its one covering store's value, whose loads read the whole staging buffers. -/
theorem out_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .i32) (harg5 : arg5.IsWhole) (arg6 : Memref sig .tc .vmem S1x1x6 .f32) (harg6 : arg6.IsWhole) (hc0 : ¬cond0_0 i)
    (x0 x1 x2 : Vec F S1024x128 .f32) (x3 : Vec F S1024x128 .i32) (xo4 : Vec F S1x1x6 .f32) :
    out0_B_4 c i arg2 harg2 arg3 harg3 arg4 harg4 arg5 harg5 arg6 harg6 hc0 x0 x1 x2 x3 xo4 = Row.stored x0 x1 x2 x3 xo4 := by
  unfold out0_B_4
  rw [View.read_writes_eq_canon _ _ _ (cover0_B_4 c i arg2 harg2 arg3 harg3 arg4 harg4 arg5 harg5 arg6 harg6 hc0 x0 x1 x2 x3 xo4)]
  unfold kernelRun0_B
  dsimp only
  sl_unfold_words
  rw [View.canon_unit_zero hz3]
  simp only [View.readAt_eq_ld, harg2.read_unread, harg3.read_unread, harg4.read_unread, harg5.read_unread,
    harg6.read_unread, View.ld_unit_zero (S := S1024x128) hz2, View.ld_unit_zero (S := S1x1x6) hz3]
  rfl

/-- At a core's first point the body first stores the zero row, reads it back, and leaves the stored row over zeros. -/
theorem out_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .i32) (harg5 : arg5.IsWhole) (arg6 : Memref sig .tc .vmem S1x1x6 .f32) (harg6 : arg6.IsWhole) (hc0 : cond0_0 i)
    (x0 x1 x2 : Vec F S1024x128 .f32) (x3 : Vec F S1024x128 .i32) :
    out0_A_4 c i arg2 harg2 arg3 harg3 arg4 harg4 arg5 harg5 arg6 harg6 hc0 x0 x1 x2 x3 = Row.stored x0 x1 x2 x3 (k0_pay2 (F := F)) := by
  unfold out0_A_4
  rw [View.read_writes_eq_canon _ _ _ (cover0_A_4 c i arg2 harg2 arg3 harg3 arg4 harg4 arg5 harg5 arg6 harg6 hc0 x0 x1 x2 x3)]
  unfold kernelRun0_A
  dsimp only
  sl_unfold_words
  rw [View.canon_cons_unit_zero (S := S1x1x6) hz3, View.readCov_unit_zero (S := S1x1x6) _ hz3]
  simp only [View.readAt_eq_ld, harg2.read_unread, harg3.read_unread, harg4.read_unread, harg5.read_unread,
    View.ld_unit_zero (S := S1024x128) hz2, View.ld_unit_zero (S := S1x1x6) hz3]
  rfl

/-! ## The accumulator row, point by point (over the extended reals) -/

section Ideal

variable (m : (ℓ : Loc nD τ sig) → Buf (Elt Ideal) ℓ) (ρ : Dev nD → PrngReg)

/-- The logits and the labels as the kernel was launched with them. -/
abbrev xs (c : Dev nD) : Cert.GroupLoss.Logits := m ((c : Thread nD τ).loc main_arg0)
abbrev ls (c : Dev nD) : Cert.GroupLoss.Labels := m ((c : Thread nD τ).loc main_arg1)

/-- What block `n` adds to the accumulator of bin `b`: the cross-entropies of the block's samples whose subgroup word is
    `b` (nothing past the grid's 128 blocks). -/
def binAdd (c : Dev nD) (n b : Nat) : EReal :=
  if h : n < 128 then
    ∑ r : Fin 1024, ∑ q : Fin 128,
      if Cert.GroupLoss.subAt (xs m c) (ls m c) (Cert.GroupLoss.sampleOf ⟨n, h⟩ r q) = BitVec.ofNat 32 b
      then Cert.GroupLoss.ceAt (xs m c) (ls m c) (Cert.GroupLoss.sampleOf ⟨n, h⟩ r q) else 0
  else 0

/-- An index of the one-row accumulator is its bin. -/
theorem idx_cases (i : S1x1x6.Idx) : ∃ b : Fin 6, i = ix3 (0 : Fin 1) (0 : Fin 1) b := by
  obtain ⟨a0, a1, b, rfl⟩ : ∃ (a0 : Fin 1) (a1 : Fin 1) (b : Fin 6), i = ix3 a0 a1 b := ⟨i 0, i 1, i 2, eq_ix3 i⟩
  obtain rfl : a0 = 0 := Subsingleton.elim _ _
  obtain rfl : a1 = 0 := Subsingleton.elim _ _
  exact ⟨b, rfl⟩

/-- The row a point stores is the row it found plus the block's addends. -/
theorem stored_row (c : Dev nD) (n : Nat) (h : n < cfg0.N) (acc : Vec Ideal S1x1x6 .f32) (i : S1x1x6.Idx) :
    Row.stored (F := Ideal) (iblk m c 0 ⟨n, h⟩) (iblk m c 1 ⟨n, h⟩) (iblk m c 2 ⟨n, h⟩) (iblk m c 3 ⟨n, h⟩) acc i
      = acc i + binAdd m c n (i 2).val := by
  have hn : n < 128 := lt_of_lt_of_eq h N_0
  obtain ⟨b, rfl⟩ := idx_cases i
  refine (Row.stored_apply _ _ _ _ acc b).trans ?_
  rw [binAdd, dif_pos hn]
  refine congrArg _ (Finset.sum_congr rfl fun r _ => Finset.sum_congr rfl fun q _ => ?_)
  rw [Blocks.iblk0_apply m c ⟨n, h⟩ r q, Blocks.iblk1_apply m c ⟨n, h⟩ r q, Blocks.iblk2_apply m c ⟨n, h⟩ r q,
    Blocks.iblk3_apply m c ⟨n, h⟩ r q]
  rfl

/-- The zero row the reset stores. -/
theorem zero_row (i : S1x1x6.Idx) : (k0_pay2 (F := Ideal)) i = 0 := by
  unfold k0_pay2
  exact Ideal.ofBits_zero_f32

/-- After point `t` the accumulator row holds the addends of the points of `t`'s run of 64 up to `t`. -/
theorem row_eq (c : Dev nD) (t : Nat) (ht : t < cfg0.N) (i : S1x1x6.Idx) :
    outsAt0 m c t ht i = 0 + ∑ s ∈ Finset.range (t % 64 + 1), binAdd m c (64 * (t / 64) + s) (i 2).val := by
  have hN : cfg0.N = 128 := N_0
  have h' : 64 * (t / 64) + t % 64 < cfg0.N := by omega
  rw [Pipeline.eq_accAt_of_mod (fun n h => outsAt0 m c n h) 64
    (fun n h => Row.stored (F := Ideal) (iblk m c 0 ⟨n, h⟩) (iblk m c 1 ⟨n, h⟩) (iblk m c 2 ⟨n, h⟩) (iblk m c 3 ⟨n, h⟩) (k0_pay2 (F := Ideal)))
    (fun n h acc => Row.stored (F := Ideal) (iblk m c 0 ⟨n, h⟩) (iblk m c 1 ⟨n, h⟩) (iblk m c 2 ⟨n, h⟩) (iblk m c 3 ⟨n, h⟩) acc)
    (fun n h h0 => (outsAt0_A m c ⟨n, h⟩ h0).trans (out_A ..))
    (fun n h hne => by
      rw [outsAt0_B m c ⟨n + 1, h⟩ hne, out_B]
      rfl)
    (by norm_num) t ht h']
  exact Pipeline.accAt_add_apply _ _ (fun _ => 0) (fun n (j : S1x1x6.Idx) => binAdd m c n (j 2).val) (64 * (t / 64)) 63
    (fun h i => by rw [stored_row, zero_row])
    (fun n h acc i _ _ => stored_row m c n h acc i) (t % 64) (by omega) h' i

/-! ## The per-core rows the region leaves, and the host's sums over them -/

/-- The [2, 1, 6] array after the region: core `k`'s row holds, per bin, the addends of its 64 blocks. -/
def rows (c : Dev nD) : S2x1x6.Idx → EReal :=
  fun i => 0 + ∑ s ∈ Finset.range 64, binAdd m c (64 * (i 0).val + s) (i 2).val

/-- The output window's block index at point `t`: the core `t / 64`, and the whole of the other two axes. -/
theorem index4 : ∀ t : Fin cfg0.N, win0_4.index t (0 : Fin 3) = t.val / 64 ∧ win0_4.index t (1 : Fin 3) = 0
    ∧ win0_4.index t (2 : Fin 3) = 0 :=
  (by decide +kernel : ∀ t : Fin grid0.N, win0_4.index t (0 : Fin 3) = t.val / 64 ∧ win0_4.index t (1 : Fin 3) = 0
    ∧ win0_4.index t (2 : Fin 3) = 0)

/-- Each write-back (after a core's last point) writes that core's row of `rows`. -/
theorem flushed_eq (c : Dev nD) (t : Fin cfg0.N) (hf : (cfg0.win 4).flush t = true) :
    (dats m 0 c).flushed 4 t = ((cfg0.win 4).blk t).view.read (Elt Ideal) (rows m c) := by
  have h63 : t.val % 64 = 63 := (flush0_4 t).mp hf
  funext y
  rw [View.read_apply]
  show (dats m 0 c).after 4 t ((cfg0.win 4).xinj (grid0.coords t) y) = rows m c (((cfg0.win 4).blk t).view.emb y)
  rw [after0_4, row_eq, h63]
  have e0 : ((((cfg0.win 4).blk t).view.emb y) 0).val = t.val / 64 := by
    show win0_4.index t 0 * 1 + 1 * (y 0).val = _
    have h1 : (y 0).val < 1 := (y 0).isLt
    rw [(index4 t).1]; omega
  have e2 : ((((cfg0.win 4).blk t).view.emb y) 2).val = (y 2).val := by
    show win0_4.index t 2 * 6 + 1 * (y 2).val = _
    rw [(index4 t).2.2]; omega
  unfold rows
  rw [e0, e2]

/-- The output window moves whole [1, 1, 6] blocks. -/
theorem xsize4 : ∀ t : Fin cfg0.N, win0_4.xsize (grid0.coords t) (0 : Fin 3) = 1 ∧ win0_4.xsize (grid0.coords t) (1 : Fin 3) = 1
    ∧ win0_4.xsize (grid0.coords t) (2 : Fin 3) = 6 :=
  (by decide +kernel : ∀ t : Fin grid0.N, win0_4.xsize (grid0.coords t) (0 : Fin 3) = 1
    ∧ win0_4.xsize (grid0.coords t) (1 : Fin 3) = 1 ∧ win0_4.xsize (grid0.coords t) (2 : Fin 3) = 6)

/-- So the [2, 1, 6] array ends holding the two cores' rows: core k's last point, 64 k + 63, writes row k. -/
theorem final (c : Dev nD) : (dats m 0 c).arrAt 4 cfg0.N = rows m c :=
  (dats m 0 c).arrAt_eq_of_cover 4 (rows m c) (flushed_eq m c) fun i => by
    have hN : cfg0.N = 128 := N_0
    have h0 : (i 0 : Nat) < 2 := (i 0).isLt
    have h1 : (i 1 : Nat) < 1 := (i 1).isLt
    have h2 : (i 2 : Nat) < 6 := (i 2).isLt
    have ht : 64 * (i 0 : Nat) + 63 < cfg0.N := by omega
    refine ⟨⟨64 * (i 0 : Nat) + 63, ht⟩, (flush0_4 _).mpr (by show (64 * (i 0 : Nat) + 63) % 64 = 63; omega), ?_⟩
    show i ∈ ((View.whole main_v8).slice (win0_4.rect ⟨64 * (i 0 : Nat) + 63, ht⟩)).set
    rw [View.set_slice_whole, Rect.mem_set_unit]
    intro a
    have hi := index4 ⟨64 * (i 0 : Nat) + 63, ht⟩
    have hx := xsize4 ⟨64 * (i 0 : Nat) + 63, ht⟩
    match a with
    | ⟨0, _⟩ =>
      show win0_4.index ⟨64 * (i 0 : Nat) + 63, ht⟩ 0 * 1 ≤ (i 0 : Nat)
        ∧ (i 0 : Nat) < win0_4.index ⟨64 * (i 0 : Nat) + 63, ht⟩ 0 * 1 + win0_4.xsize (grid0.coords ⟨64 * (i 0 : Nat) + 63, ht⟩) 0
      rw [hi.1, hx.1]; dsimp only; omega
    | ⟨1, _⟩ =>
      show win0_4.index ⟨64 * (i 0 : Nat) + 63, ht⟩ 1 * 1 ≤ (i 1 : Nat)
        ∧ (i 1 : Nat) < win0_4.index ⟨64 * (i 0 : Nat) + 63, ht⟩ 1 * 1 + win0_4.xsize (grid0.coords ⟨64 * (i 0 : Nat) + 63, ht⟩) 1
      rw [hi.2.1, hx.2.1]; omega
    | ⟨2, _⟩ =>
      show win0_4.index ⟨64 * (i 0 : Nat) + 63, ht⟩ 2 * 6 ≤ (i 2 : Nat)
        ∧ (i 2 : Nat) < win0_4.index ⟨64 * (i 0 : Nat) + 63, ht⟩ 2 * 6 + win0_4.xsize (grid0.coords ⟨64 * (i 0 : Nat) + 63, ht⟩) 2
      rw [hi.2.2, hx.2.2]; omega

/-- The two cores' rows add up, bin by bin, to the subgroup loss: their 128 blocks of 1024 rows of 128 lanes are all the
    samples. -/
theorem rows_sum (c : Dev nD) (b : Nat) :
    (0 + ∑ s ∈ Finset.range 64, binAdd m c (64 * 0 + s) b) + (0 + ∑ s ∈ Finset.range 64, binAdd m c (64 * 1 + s) b)
      = Cert.GroupLoss.subLoss (xs m c) (ls m c) (BitVec.ofNat 32 b) := by
  rw [zero_add, zero_add]
  have e : ∀ s, binAdd m c (64 * 0 + s) b = binAdd m c s b := fun s => by rw [Nat.mul_zero, Nat.zero_add]
  simp only [e, Nat.mul_one]
  rw [← Finset.sum_range_add (fun s => binAdd m c s b) 64 64, Finset.sum_range]
  unfold Cert.GroupLoss.subLoss
  rw [← Cert.GroupLoss.sum_sampleOf]
  refine Finset.sum_congr rfl fun t _ => ?_
  rw [binAdd, dif_pos t.isLt]

/-! ## The host's lines after the region -/

/-- The subgroup sums: the two cores' rows added (the reshape to [2, 6], then the sum over the cores). -/
def sums6 (R : S2x1x6.Idx → EReal) : S6.Idx → EReal :=
  Host.reduceAdd (F := Ideal) (shapeCast S2x6 R shapeCasts_S2x1x6_S2x6) (constant (F := Ideal) S_ .f32 0x00000000#32)
    reducesTo_S2x6_S6_d0 h_S_

theorem sums6_apply (R : S2x1x6.Idx → EReal) (b : Fin 6) :
    sums6 R (ix1 b) = 0 + (R (ix3 (0 : Fin 2) (0 : Fin 1) b) + R (ix3 (1 : Fin 2) (0 : Fin 1) b)) := by
  unfold sums6
  simp only [Host.reduceAdd, Ideal.hostReduceAdd_def]
  rw [Ideal.hostReduceAdd_single reducesTo_S2x6_S6_d0 (by decide)]
  show _ + ∑ k : Fin 2, _ = _
  rw [Fin.sum_univ_two]
  refine congrArg₂ (· + ·) Ideal.ofBits_zero_f32 (congrArg₂ (· + ·) ?_ ?_)
  · exact shapeCast_apply R _ _ (ix3 (0 : Fin 2) (0 : Fin 1) b)
      (by rewrite [Shape.rowMajor_val_three, Shape.rowMajor_val_two]; show (0 * 1 + 0) * 6 + b.val = 0 * 6 + b.val; omega)
  · exact shapeCast_apply R _ _ (ix3 (1 : Fin 2) (0 : Fin 1) b)
      (by rewrite [Shape.rowMajor_val_three, Shape.rowMajor_val_two]; show (1 * 1 + 0) * 6 + b.val = 1 * 6 + b.val; omega)

/-- The group sums: each group's three subgroups added (the reshape to [2, 3], then the sum along a row). -/
def sums2 (R : S2x1x6.Idx → EReal) : S2.Idx → EReal :=
  Host.reduceAdd (F := Ideal) (shapeCast S2x3 (sums6 R) shapeCasts_S6_S2x3) (constant (F := Ideal) S_ .f32 0x00000000#32)
    reducesTo_S2x3_S2_d1 h_S_

theorem sums2_apply (R : S2x1x6.Idx → EReal) (k : Fin 2) :
    sums2 R (ix1 k) = 0 + ((sums6 R (ix1 (⟨3 * k.val, by omega⟩ : Fin 6)) + sums6 R (ix1 (⟨3 * k.val + 1, by omega⟩ : Fin 6)))
      + sums6 R (ix1 (⟨3 * k.val + 2, by omega⟩ : Fin 6))) := by
  unfold sums2
  simp only [Host.reduceAdd, Ideal.hostReduceAdd_def]
  rw [Ideal.hostReduceAdd_single reducesTo_S2x3_S2_d1 (by decide)]
  show _ + ∑ j : Fin 3, _ = _
  rw [Fin.sum_univ_three]
  refine congrArg₂ (· + ·) Ideal.ofBits_zero_f32 (congrArg₂ (· + ·) (congrArg₂ (· + ·) ?_ ?_) ?_)
  · exact shapeCast_apply (sums6 R) _ _ (ix1 (⟨3 * k.val, by omega⟩ : Fin 6))
      (by rewrite [Shape.rowMajor_val_one, Shape.rowMajor_val_two]; show 3 * k.val = k.val * 3 + 0; omega)
  · exact shapeCast_apply (sums6 R) _ _ (ix1 (⟨3 * k.val + 1, by omega⟩ : Fin 6))
      (by rewrite [Shape.rowMajor_val_one, Shape.rowMajor_val_two]; show 3 * k.val + 1 = k.val * 3 + 1; omega)
  · exact shapeCast_apply (sums6 R) _ _ (ix1 (⟨3 * k.val + 2, by omega⟩ : Fin 6))
      (by rewrite [Shape.rowMajor_val_one, Shape.rowMajor_val_two]; show 3 * k.val + 2 = k.val * 3 + 2; omega)

/-- Over the region's rows the subgroup sums are the subgroup losses … -/
theorem sums6_rows (c : Dev nD) : sums6 (rows m c) = Cert.GroupLoss.outSub (xs m c) (ls m c) := by
  funext j
  obtain ⟨b, rfl⟩ : ∃ b : Fin 6, j = ix1 b := ⟨j 0, eq_ix1 j⟩
  rw [sums6_apply, zero_add]
  exact rows_sum m c b.val

/-- … and, the labels being 0, 1 or 2, the group sums are the group losses. -/
theorem sums2_rows (c : Dev nD)
    (hl : ∀ i : Fin 16777216, ls m c (ix1 i) = 0#32 ∨ ls m c (ix1 i) = 1#32 ∨ ls m c (ix1 i) = 2#32) :
    sums2 (rows m c) = Cert.GroupLoss.outGrp (xs m c) (ls m c) := by
  funext j
  obtain ⟨k, rfl⟩ : ∃ k : Fin 2, j = ix1 k := ⟨j 0, eq_ix1 j⟩
  rw [sums2_apply, zero_add, sums6_rows]
  exact Cert.GroupLoss.subLoss_add_three (xs m c) (ls m c) hl k

/-- A sum over the indices of a vector of length n is the sum over the numbers below n. -/
theorem sum_vec {n : Nat} (f : (⟨1, ![n]⟩ : Shape).Idx → EReal) : ∑ j, f j = ∑ k : Fin n, f (ix1 k) :=
  (Fintype.sum_equiv (Idealize.ShloMosaic.ScatterAddBins.idx1Equiv n) _ _ fun _ => rfl).symm

/-- The combined loss over given group sums `g` and weights `w`, as the host's last lines compute it. -/
def combine (g w : S2.Idx → EReal) : S_.Idx → EReal :=
  addf (F := Ideal)
    (mulf (F := Ideal) (constant (F := Ideal) S_ .f32 0x3F333333#32)
      (Host.divf (F := Ideal) (Host.reduceAdd (F := Ideal) g (constant (F := Ideal) S_ .f32 0x00000000#32) reducesTo_S2_S_d0 h_S_)
        (constant (F := Ideal) S_ .f32 0x4B800000#32)))
    (mulf (F := Ideal) (constant (F := Ideal) S_ .f32 0x3E99999A#32)
      (Host.reduceAdd (F := Ideal) (mulf (F := Ideal) g w) (constant (F := Ideal) S_ .f32 0x00000000#32) reducesTo_S2_S_d0 h_S_))

/-- The host's sum of a two-element vector from zero. -/
theorem reduce2_apply (g : S2.Idx → EReal) (i : S_.Idx) :
    Host.reduceAdd (F := Ideal) g (constant (F := Ideal) S_ .f32 0x00000000#32) reducesTo_S2_S_d0 h_S_ i
      = g (ix1 (0 : Fin 2)) + g (ix1 (1 : Fin 2)) := by
  simp only [Host.reduceAdd, Ideal.hostReduceAdd_def]
  refine (Ideal.hostReduceAdd_total reducesTo_S2_S_d0 (fun b => b.elim0) g _ i).trans ?_
  rw [sum_vec, Fin.sum_univ_two]
  exact (congrArg (· + (g (ix1 (0 : Fin 2)) + g (ix1 (1 : Fin 2)))) Ideal.ofBits_zero_f32).trans (zero_add _)

/-- The host's last lines at their one index, over any group sums `g`. -/
theorem combine_apply (g w : S2.Idx → EReal) (i : S_.Idx) :
    combine g w i = Ideal.ofBits .f32 0x3F333333#32 * Ideal.div (g (ix1 (0 : Fin 2)) + g (ix1 (1 : Fin 2))) (Ideal.ofBits .f32 0x4B800000#32)
      + Ideal.ofBits .f32 0x3E99999A#32 * (g (ix1 (0 : Fin 2)) * w (ix1 (0 : Fin 2)) + g (ix1 (1 : Fin 2)) * w (ix1 (1 : Fin 2))) := by
  show Ideal.ofBits .f32 0x3F333333#32
        * Ideal.div (Host.reduceAdd (F := Ideal) g (constant (F := Ideal) S_ .f32 0x00000000#32) reducesTo_S2_S_d0 h_S_ i)
            (Ideal.ofBits .f32 0x4B800000#32)
      + Ideal.ofBits .f32 0x3E99999A#32
        * Host.reduceAdd (F := Ideal) (mulf (F := Ideal) g w) (constant (F := Ideal) S_ .f32 0x00000000#32) reducesTo_S2_S_d0 h_S_ i = _
  rw [reduce2_apply, reduce2_apply]
  rfl

attribute [local irreducible] Cert.GroupLoss.grpLoss Cert.GroupLoss.subLoss Cert.GroupLoss.total in
/-- Over the group losses the host's last lines give the combined loss: the two group losses add up to the total. -/
theorem combine_out (c : Dev nD) (w : S2.Idx → EReal) :
    combine (Cert.GroupLoss.outGrp (xs m c) (ls m c)) w = Cert.GroupLoss.outAll (xs m c) (ls m c) w := by
  funext i
  have e : Cert.GroupLoss.outGrp (xs m c) (ls m c) (ix1 (0 : Fin 2)) + Cert.GroupLoss.outGrp (xs m c) (ls m c) (ix1 (1 : Fin 2))
      = Cert.GroupLoss.total (xs m c) (ls m c) := Cert.GroupLoss.grpLoss_add_two (xs m c) (ls m c)
  rw [combine_apply, e]
  rfl

/-- What the lines after the region find in the [2, 1, 6] result array: the two cores' rows. -/
theorem tail_rows (c : Dev nD) :
    Pipeline.withArrays (cfgs 0).spec c (V0 m c) (fun w => (dats m 0 c).arrAt w (cfgs 0).N) (Proc.devRef .tc main_v8)
      = rows m c :=
  (Pipeline.withArrays_arr spec0 launch0.win.arr_inj c _ _ 4).trans (final m c)

/-- They find the weights as launched. -/
theorem tail_arg2 (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans
    (V_main_arg2 m c)

attribute [local irreducible] Host.reduceAdd Host.divf shapeCast constant addf mulf Cert.GroupLoss.grpLoss Cert.GroupLoss.subLoss Cert.GroupLoss.total in
/-- The subgroup losses the kernel's @main returns. -/
theorem v10_eq (c : Dev nD) :
    Pipeline.afterTail₀ cfgs (dats m) 0 (V0 m) [hostOps1] c main_v10 = Cert.GroupLoss.outSub (xs m c) (ls m c) := by
  unfold Pipeline.afterTail₀
  show StableHlo.after hostOps1 _ (Proc.devRef .tc main_v10) = _
  after_results
  rw [tail_rows]
  exact sums6_rows m c

attribute [local irreducible] Host.reduceAdd Host.divf shapeCast constant addf mulf Cert.GroupLoss.grpLoss Cert.GroupLoss.subLoss Cert.GroupLoss.total in
/-- The group losses it returns. -/
theorem v12_eq (c : Dev nD)
    (hl : ∀ i : Fin 16777216, ls m c (ix1 i) = 0#32 ∨ ls m c (ix1 i) = 1#32 ∨ ls m c (ix1 i) = 2#32) :
    Pipeline.afterTail₀ cfgs (dats m) 0 (V0 m) [hostOps1] c main_v12 = Cert.GroupLoss.outGrp (xs m c) (ls m c) := by
  unfold Pipeline.afterTail₀
  show StableHlo.after hostOps1 _ (Proc.devRef .tc main_v12) = _
  after_results
  rw [tail_rows]
  exact sums2_rows m c hl

attribute [local irreducible] Host.reduceAdd Host.divf shapeCast constant addf mulf Cert.GroupLoss.grpLoss Cert.GroupLoss.subLoss Cert.GroupLoss.total in
/-- The combined loss it returns. -/
theorem v19_eq (c : Dev nD)
    (hl : ∀ i : Fin 16777216, ls m c (ix1 i) = 0#32 ∨ ls m c (ix1 i) = 1#32 ∨ ls m c (ix1 i) = 2#32) :
    Pipeline.afterTail₀ cfgs (dats m) 0 (V0 m) [hostOps1] c main_v19
      = Cert.GroupLoss.outAll (xs m c) (ls m c) (m ((c : Thread nD τ).loc main_arg2)) := by
  unfold Pipeline.afterTail₀
  show StableHlo.after hostOps1 _ (Proc.devRef .tc main_v19) = _
  after_results
  rw [tail_rows, tail_arg2]
  refine Eq.trans ?_ (combine_out m c _)
  rw [← sums2_rows m c hl]
  rfl

/-! ## The kernel's run, read -/

/-- With labels among 0, 1, 2: every weakly fair execution of the kernel's @main terminates with the combined loss, the group
    losses and the subgroup losses of the specification in its three results, and its arguments unchanged. -/
theorem run (hl : ∀ (c : Dev nD) (i : Fin 16777216), ls m c (ix1 i) = 0#32 ∨ ls m c (ix1 i) = 1#32 ∨ ls m c (ix1 i) = 2#32) :
    θ_run defs (onTc (τ := τ) (main (F := Ideal))) ⟨m, fun _ => 0, ρ⟩ fun r => ∀ c : Dev nD,
      r.2.mem ((c.tc : Thread nD τ).loc main_v19) = Cert.GroupLoss.outAll (xs m c) (ls m c) (m ((c.tc : Thread nD τ).loc main_arg2))
      ∧ r.2.mem ((c.tc : Thread nD τ).loc main_v12) = Cert.GroupLoss.outGrp (xs m c) (ls m c)
      ∧ r.2.mem ((c.tc : Thread nD τ).loc main_v10) = Cert.GroupLoss.outSub (xs m c) (ls m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v19 (Pipeline.mem_restRefs_of main_v19 (by decide) (by decide))).trans (v19_eq m c (hl c)),
      ((h c).2 main_v12 (Pipeline.mem_restRefs_of main_v12 (by decide) (by decide))).trans (v12_eq m c (hl c)),
      ((h c).2 main_v10 (Pipeline.mem_restRefs_of main_v10 (by decide) (by decide))).trans (v10_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Ideal

end Cert.KernelIdeal.KValue

end
-- ==== Proof.RefStages.lean ====
/-
  The reference program's run, read stage by stage: each of its three results is the composition of its operations'
  values, and its arguments end as they began. The operations are evaluated in four stretches, cut where few buffers
  are still to be read (after the log-softmax; after the per-sample loss; after the group and subgroup words), so that
  no stretch meets a value shared by many later operations more than once.
-/
import proofs.«426219_j71717363908861_3_alg».proof.Proof.RefRun
import proofs.«426219_j71717363908861_3_alg».proof.Proof.RefRead

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-! ## The four stretches

The operations of @main in order, each written over its buffers directly: an operation of a called function, stated
over references that carry their tensor types, is the same operation over the buffers, since moving contents along
a reference's own type is the identity. -/

/-- Operations 1–15: the log-softmax of the logits, written into `main_v0`. -/
def opsA : List (HloOp τ sig (Elt F)) :=
  [ nullary main_call0_cst (constant S_ .f32 0xFF800000#32),
    binary main_arg0 main_call0_cst main_call0_v0 ((fun x v => Host.reduce FloatOps.maximumf x v reducesTo_S16777216x3_S16777216_d1 h_S_) : (⟨S16777216x3, .f32⟩ : BufTy).Contents (Elt F) → (⟨S_, .f32⟩ : BufTy).Contents (Elt F) → (⟨S16777216, .f32⟩ : BufTy).Contents (Elt F)),
    nullary main_call0_cst_0 (constant S_ .f32 0xFF800000#32),
    unary main_call0_cst_0 main_call0_v1 ((broadcastInDim S16777216 ![] bcast_S_S16777216) : (⟨S_, .f32⟩ : BufTy).Contents (Elt F) → (⟨S16777216, .f32⟩ : BufTy).Contents (Elt F)),
    binary main_call0_v1 main_call0_v0 main_call0_v2 (maximumf : (⟨S16777216, .f32⟩ : BufTy).Contents (Elt F) → (⟨S16777216, .f32⟩ : BufTy).Contents (Elt F) → (⟨S16777216, .f32⟩ : BufTy).Contents (Elt F)),
    unary main_call0_v2 main_call0_v3 ((broadcastInDim S16777216x1 ![0] bcast_S16777216_S16777216x1_0) : (⟨S16777216, .f32⟩ : BufTy).Contents (Elt F) → (⟨S16777216x1, .f32⟩ : BufTy).Contents (Elt F)),
    unary main_call0_v3 main_call0_v4 ((broadcastInDim S16777216x3 ![0, 1] bcast_S16777216x1_S16777216x3_0_1) : (⟨S16777216x1, .f32⟩ : BufTy).Contents (Elt F) → (⟨S16777216x3, .f32⟩ : BufTy).Contents (Elt F)),
    binary main_arg0 main_call0_v4 main_call0_v5 (subf : (⟨S16777216x3, .f32⟩ : BufTy).Contents (Elt F) → (⟨S16777216x3, .f32⟩ : BufTy).Contents (Elt F) → (⟨S16777216x3, .f32⟩ : BufTy).Contents (Elt F)),
    unary main_call0_v5 main_call0_v6 (Host.exp : (⟨S16777216x3, .f32⟩ : BufTy).Contents (Elt F) → (⟨S16777216x3, .f32⟩ : BufTy).Contents (Elt F)),
    nullary main_call0_cst_1 (constant S_ .f32 0x00000000#32),
    binary main_call0_v6 main_call0_cst_1 main_call0_v7 ((fun x v => Host.reduceAdd x v reducesTo_S16777216x3_S16777216_d1 h_S_) : (⟨S16777216x3, .f32⟩ : BufTy).Contents (Elt F) → (⟨S_, .f32⟩ : BufTy).Contents (Elt F) → (⟨S16777216, .f32⟩ : BufTy).Contents (Elt F)),
    unary main_call0_v7 main_call0_v8 ((broadcastInDim S16777216x1 ![0] bcast_S16777216_S16777216x1_0) : (⟨S16777216, .f32⟩ : BufTy).Contents (Elt F) → (⟨S16777216x1, .f32⟩ : BufTy).Contents (Elt F)),
    unary main_call0_v8 main_call0_v9 (Host.log : (⟨S16777216x1, .f32⟩ : BufTy).Contents (Elt F) → (⟨S16777216x1, .f32⟩ : BufTy).Contents (Elt F)),
    unary main_call0_v9 main_call0_v10 ((broadcastInDim S16777216x3 ![0, 1] bcast_S16777216x1_S16777216x3_0_1) : (⟨S16777216x1, .f32⟩ : BufTy).Contents (Elt F) → (⟨S16777216x3, .f32⟩ : BufTy).Contents (Elt F)),
    binary main_call0_v5 main_call0_v10 main_v0 (subf : (⟨S16777216x3, .f32⟩ : BufTy).Contents (Elt F) → (⟨S16777216x3, .f32⟩ : BufTy).Contents (Elt F) → (⟨S16777216x3, .f32⟩ : BufTy).Contents (Elt F)) ]

/-- Operations 16–40: the label column, the log-probability picked at the label (NaN where the label is out of range), and its negation, the per-sample loss `main_v4`. -/
def opsB : List (HloOp τ sig (Elt F)) :=
  [ unary main_arg1 main_v1 (broadcastInDim S16777216x1 ![0] bcast_S16777216_S16777216x1_0 : (⟨S16777216, .i32⟩ : BufTy).Contents (Elt F) → (⟨S16777216x1, .i32⟩ : BufTy).Contents (Elt F)),
    nullary main_call1_c (constantI S_ 32 0#32),
    unary main_call1_c main_call1_v0 ((broadcastInDim S16777216x1 ![] bcast_S_S16777216x1) : (⟨S_, .i32⟩ : BufTy).Contents (Elt F) → (⟨S16777216x1, .i32⟩ : BufTy).Contents (Elt F)),
    binary main_v1 main_call1_v0 main_call1_v1 ((cmpi .slt) : (⟨S16777216x1, .i32⟩ : BufTy).Contents (Elt F) → (⟨S16777216x1, .i32⟩ : BufTy).Contents (Elt F) → (⟨S16777216x1, .i1⟩ : BufTy).Contents (Elt F)),
    nullary main_call1_c_0 (constantI S_ 32 3#32),
    unary main_call1_c_0 main_call1_v2 ((broadcastInDim S16777216x1 ![] bcast_S_S16777216x1) : (⟨S_, .i32⟩ : BufTy).Contents (Elt F) → (⟨S16777216x1, .i32⟩ : BufTy).Contents (Elt F)),
    binary main_v1 main_call1_v2 main_call1_v3 (addi : (⟨S16777216x1, .i32⟩ : BufTy).Contents (Elt F) → (⟨S16777216x1, .i32⟩ : BufTy).Contents (Elt F) → (⟨S16777216x1, .i32⟩ : BufTy).Contents (Elt F)),
    ternary main_call1_v1 main_call1_v3 main_v1 main_call1_v4 (select : (⟨S16777216x1, .i1⟩ : BufTy).Contents (Elt F) → (⟨S16777216x1, .i32⟩ : BufTy).Contents (Elt F) → (⟨S16777216x1, .i32⟩ : BufTy).Contents (Elt F) → (⟨S16777216x1, .i32⟩ : BufTy).Contents (Elt F)),
    reshape main_call1_v4 main_call1_v5 rfl shapeCasts_S16777216x1_S16777216x1x1,
    nullary main_call1_c_1 (constantI S1 32 2#32),
    nullary main_call1_c_2 (constantI S_ 32 0#32),
    unary main_call1_c_2 main_call1_v6 ((broadcastInDim S16777216x1x1 ![] bcast_S_S16777216x1x1) : (⟨S_, .i32⟩ : BufTy).Contents (Elt F) → (⟨S16777216x1x1, .i32⟩ : BufTy).Contents (Elt F)),
    binary main_call1_v5 main_call1_v6 main_call1_v7 ((cmpi .sge) : (⟨S16777216x1x1, .i32⟩ : BufTy).Contents (Elt F) → (⟨S16777216x1x1, .i32⟩ : BufTy).Contents (Elt F) → (⟨S16777216x1x1, .i1⟩ : BufTy).Contents (Elt F)),
    unary main_call1_c_1 main_call1_v8 ((broadcastInDim S1x1x1 ![2] bcast_S1_S1x1x1_2) : (⟨S1, .i32⟩ : BufTy).Contents (Elt F) → (⟨S1x1x1, .i32⟩ : BufTy).Contents (Elt F)),
    unary main_call1_v8 main_call1_v9 ((broadcastInDim S16777216x1x1 ![0, 1, 2] bcast_S1x1x1_S16777216x1x1_0_1_2) : (⟨S1x1x1, .i32⟩ : BufTy).Contents (Elt F) → (⟨S16777216x1x1, .i32⟩ : BufTy).Contents (Elt F)),
    binary main_call1_v5 main_call1_v9 main_call1_v10 ((cmpi .sle) : (⟨S16777216x1x1, .i32⟩ : BufTy).Contents (Elt F) → (⟨S16777216x1x1, .i32⟩ : BufTy).Contents (Elt F) → (⟨S16777216x1x1, .i1⟩ : BufTy).Contents (Elt F)),
    binary main_call1_v7 main_call1_v10 main_call1_v11 (andi : (⟨S16777216x1x1, .i1⟩ : BufTy).Contents (Elt F) → (⟨S16777216x1x1, .i1⟩ : BufTy).Contents (Elt F) → (⟨S16777216x1x1, .i1⟩ : BufTy).Contents (Elt F)),
    nullary main_call1_c_3 (constantI S_ 1 1#1),
    binary main_call1_v11 main_call1_c_3 main_call1_v12 ((fun x v => Host.reduce IntOp.andi x v reducesTo_S16777216x1x1_S16777216x1_d2 h_S_) : (⟨S16777216x1x1, .i1⟩ : BufTy).Contents (Elt F) → (⟨S_, .i1⟩ : BufTy).Contents (Elt F) → (⟨S16777216x1, .i1⟩ : BufTy).Contents (Elt F)),
    binary main_v0 main_call1_v5 main_call1_v13 ((fun x i => Host.gather gather_S16777216x3_S16777216x1x1_S16777216x1_n_1_0_0_1_2_11 x i) : (⟨S16777216x3, .f32⟩ : BufTy).Contents (Elt F) → (⟨S16777216x1x1, .i32⟩ : BufTy).Contents (Elt F) → (⟨S16777216x1, .f32⟩ : BufTy).Contents (Elt F)),
    nullary main_call1_cst (constant S_ .f32 0x7FC00000#32),
    unary main_call1_cst main_call1_v14 ((broadcastInDim S16777216x1 ![] bcast_S_S16777216x1) : (⟨S_, .f32⟩ : BufTy).Contents (Elt F) → (⟨S16777216x1, .f32⟩ : BufTy).Contents (Elt F)),
    ternary main_call1_v12 main_call1_v13 main_call1_v14 main_v2 (select : (⟨S16777216x1, .i1⟩ : BufTy).Contents (Elt F) → (⟨S16777216x1, .f32⟩ : BufTy).Contents (Elt F) → (⟨S16777216x1, .f32⟩ : BufTy).Contents (Elt F) → (⟨S16777216x1, .f32⟩ : BufTy).Contents (Elt F)),
    reshape main_v2 main_v3 rfl shapeCasts_S16777216x1_S16777216,
    unary main_v3 main_v4 (Host.negf : (⟨S16777216, .f32⟩ : BufTy).Contents (Elt F) → (⟨S16777216, .f32⟩ : BufTy).Contents (Elt F)) ]

/-- Operations 41–58: the group word `main_v11` (whether the mean logit is below the threshold) and the subgroup word `main_v14` (three times the group plus the label). -/
def opsC : List (HloOp τ sig (Elt F)) :=
  [ nullary main_cst (constant S_ .f32 0x00000000#32),
    binary main_arg0 main_cst main_v5 ((fun x v => Host.reduceAdd x v reducesTo_S16777216x3_S16777216_d1 h_S_) : (⟨S16777216x3, .f32⟩ : BufTy).Contents (Elt F) → (⟨S_, .f32⟩ : BufTy).Contents (Elt F) → (⟨S16777216, .f32⟩ : BufTy).Contents (Elt F)),
    nullary main_cst_0 (constant S_ .f32 0x40400000#32),
    unary main_cst_0 main_v6 (broadcastInDim S16777216 ![] bcast_S_S16777216 : (⟨S_, .f32⟩ : BufTy).Contents (Elt F) → (⟨S16777216, .f32⟩ : BufTy).Contents (Elt F)),
    binary main_v5 main_v6 main_v7 (Host.divf : (⟨S16777216, .f32⟩ : BufTy).Contents (Elt F) → (⟨S16777216, .f32⟩ : BufTy).Contents (Elt F) → (⟨S16777216, .f32⟩ : BufTy).Contents (Elt F)),
    nullary main_cst_1 (constant S_ .f32 0x3ECCCCCD#32),
    unary main_cst_1 main_v8 (broadcastInDim S16777216 ![] bcast_S_S16777216 : (⟨S_, .f32⟩ : BufTy).Contents (Elt F) → (⟨S16777216, .f32⟩ : BufTy).Contents (Elt F)),
    binary main_v7 main_v8 main_v9 (cmpf .olt : (⟨S16777216, .f32⟩ : BufTy).Contents (Elt F) → (⟨S16777216, .f32⟩ : BufTy).Contents (Elt F) → (⟨S16777216, .i1⟩ : BufTy).Contents (Elt F)),
    nullary main_c (constantI S_ 32 0#32),
    nullary main_c_2 (constantI S_ 32 1#32),
    unary main_c main_call2_v0 ((broadcastInDim S16777216 ![] bcast_S_S16777216) : (⟨S_, .i32⟩ : BufTy).Contents (Elt F) → (⟨S16777216, .i32⟩ : BufTy).Contents (Elt F)),
    unary main_c_2 main_call2_v1 ((broadcastInDim S16777216 ![] bcast_S_S16777216) : (⟨S_, .i32⟩ : BufTy).Contents (Elt F) → (⟨S16777216, .i32⟩ : BufTy).Contents (Elt F)),
    ternary main_v9 main_call2_v0 main_call2_v1 main_v10 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    unary main_v10 main_v11 (id : (⟨S16777216, .i32⟩ : BufTy).Contents (Elt F) → (⟨S16777216, .i32⟩ : BufTy).Contents (Elt F)),
    nullary main_c_3 (constantI S_ 32 3#32),
    unary main_c_3 main_v12 (broadcastInDim S16777216 ![] bcast_S_S16777216 : (⟨S_, .i32⟩ : BufTy).Contents (Elt F) → (⟨S16777216, .i32⟩ : BufTy).Contents (Elt F)),
    binary main_v11 main_v12 main_v13 (muli : (⟨S16777216, .i32⟩ : BufTy).Contents (Elt F) → (⟨S16777216, .i32⟩ : BufTy).Contents (Elt F) → (⟨S16777216, .i32⟩ : BufTy).Contents (Elt F)),
    binary main_v13 main_arg1 main_v14 (addi : (⟨S16777216, .i32⟩ : BufTy).Contents (Elt F) → (⟨S16777216, .i32⟩ : BufTy).Contents (Elt F) → (⟨S16777216, .i32⟩ : BufTy).Contents (Elt F)) ]

/-- Operations 59–78: the group sums `main_v17`, the subgroup sums `main_v20`, and the combined loss `main_v27`. -/
def opsD : List (HloOp τ sig (Elt F)) :=
  [ nullary main_cst_4 (constant S_ .f32 0x00000000#32),
    unary main_cst_4 main_v15 (broadcastInDim S2 ![] bcast_S_S2 : (⟨S_, .f32⟩ : BufTy).Contents (Elt F) → (⟨S2, .f32⟩ : BufTy).Contents (Elt F)),
    unary main_v11 main_v16 (broadcastInDim S16777216x1 ![0] bcast_S16777216_S16777216x1_0 : (⟨S16777216, .i32⟩ : BufTy).Contents (Elt F) → (⟨S16777216x1, .i32⟩ : BufTy).Contents (Elt F)),
    ternary main_v15 main_v16 main_v4 main_v17 ((fun x i u => Host.scatterAdd scatter_S2_S16777216x1_S16777216_n_0_0_1 x i u) : (⟨S2, .f32⟩ : BufTy).Contents (Elt F) → (⟨S16777216x1, .i32⟩ : BufTy).Contents (Elt F) → (⟨S16777216, .f32⟩ : BufTy).Contents (Elt F) → (⟨S2, .f32⟩ : BufTy).Contents (Elt F)),
    nullary main_cst_5 (constant S_ .f32 0x00000000#32),
    unary main_cst_5 main_v18 (broadcastInDim S6 ![] bcast_S_S6 : (⟨S_, .f32⟩ : BufTy).Contents (Elt F) → (⟨S6, .f32⟩ : BufTy).Contents (Elt F)),
    unary main_v14 main_v19 (broadcastInDim S16777216x1 ![0] bcast_S16777216_S16777216x1_0 : (⟨S16777216, .i32⟩ : BufTy).Contents (Elt F) → (⟨S16777216x1, .i32⟩ : BufTy).Contents (Elt F)),
    ternary main_v18 main_v19 main_v4 main_v20 ((fun x i u => Host.scatterAdd scatter_S6_S16777216x1_S16777216_n_0_0_1 x i u) : (⟨S6, .f32⟩ : BufTy).Contents (Elt F) → (⟨S16777216x1, .i32⟩ : BufTy).Contents (Elt F) → (⟨S16777216, .f32⟩ : BufTy).Contents (Elt F) → (⟨S6, .f32⟩ : BufTy).Contents (Elt F)),
    binary main_v17 main_arg2 main_v21 (mulf : (⟨S2, .f32⟩ : BufTy).Contents (Elt F) → (⟨S2, .f32⟩ : BufTy).Contents (Elt F) → (⟨S2, .f32⟩ : BufTy).Contents (Elt F)),
    nullary main_cst_6 (constant S_ .f32 0x00000000#32),
    binary main_v21 main_cst_6 main_v22 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    nullary main_cst_7 (constant S_ .f32 0x00000000#32),
    binary main_v4 main_cst_7 main_v23 ((fun x v => Host.reduceAdd x v reducesTo_S16777216_S_d0 h_S_) : (⟨S16777216, .f32⟩ : BufTy).Contents (Elt F) → (⟨S_, .f32⟩ : BufTy).Contents (Elt F) → (⟨S_, .f32⟩ : BufTy).Contents (Elt F)),
    nullary main_cst_8 (constant S_ .f32 0x4B800000#32),
    binary main_v23 main_cst_8 main_v24 (Host.divf : (⟨S_, .f32⟩ : BufTy).Contents (Elt F) → (⟨S_, .f32⟩ : BufTy).Contents (Elt F) → (⟨S_, .f32⟩ : BufTy).Contents (Elt F)),
    nullary main_cst_9 (constant S_ .f32 0x3F333333#32),
    binary main_cst_9 main_v24 main_v25 (mulf : (⟨S_, .f32⟩ : BufTy).Contents (Elt F) → (⟨S_, .f32⟩ : BufTy).Contents (Elt F) → (⟨S_, .f32⟩ : BufTy).Contents (Elt F)),
    nullary main_cst_10 (constant S_ .f32 0x3E99999A#32),
    binary main_cst_10 main_v22 main_v26 (mulf : (⟨S_, .f32⟩ : BufTy).Contents (Elt F) → (⟨S_, .f32⟩ : BufTy).Contents (Elt F) → (⟨S_, .f32⟩ : BufTy).Contents (Elt F)),
    binary main_v25 main_v26 main_v27 (addf : (⟨S_, .f32⟩ : BufTy).Contents (Elt F) → (⟨S_, .f32⟩ : BufTy).Contents (Elt F) → (⟨S_, .f32⟩ : BufTy).Contents (Elt F)) ]

attribute [local irreducible] Host.reduce Host.reduceAdd Host.gather Host.scatterAdd in
set_option maxRecDepth 16384 in
set_option maxHeartbeats 1600000 in
/-- The reference's operations are the four stretches in a row. -/
theorem ops_eq : ValueP.ops (F := F) = opsA ++ (opsB ++ (opsC ++ opsD)) := rfl

/-- Running all the operations is running the four stretches one after the other. -/
theorem after_ops_eq (V : Valuation τ sig (Elt F)) :
    after (ValueP.ops (F := F)) V = after opsD (after opsC (after opsB (after opsA V))) := by
  rw [ops_eq]
  simp only [after_append]

/-! ## Each stretch, from the values it reads to the values still read after it

A stretch's value at a buffer and that buffer's stage are the same composition of the same operations, applied to
the values the stretch reads. The three arguments are written by no operation. -/

attribute [local irreducible] Host.reduce Host.reduceAdd Host.gather Host.scatterAdd Host.exp Host.log Host.negf Host.divf broadcastInDim shapeCast constant constantI maximumf subf addf mulf cmpf cmpi addi muli andi select in
/-- After the first stretch the log-softmax buffer holds its stage value. -/
theorem stretchA (W : Valuation τ sig (Elt F)) (x0 : (⟨S16777216x3, .f32⟩ : BufTy).Contents (Elt F)) (x1 : (⟨S16777216, .i32⟩ : BufTy).Contents (Elt F)) (x2 : (⟨S2, .f32⟩ : BufTy).Contents (Elt F))
    (h0 : W (Proc.devRef .tc main_arg0) = x0) (h1 : W (Proc.devRef .tc main_arg1) = x1) (h2 : W (Proc.devRef .tc main_arg2) = x2) :
    after (opsA (F := F)) W (Proc.devRef .tc main_v0) = ReadP.val_main_v0 x0
    ∧ after (opsA (F := F)) W (Proc.devRef .tc main_arg0) = x0
    ∧ after (opsA (F := F)) W (Proc.devRef .tc main_arg1) = x1
    ∧ after (opsA (F := F)) W (Proc.devRef .tc main_arg2) = x2 := by
  unfold opsA
  refine ⟨?_, ?_, ?_, ?_⟩
  · after_results_simp
    simp only [h0]
    rfl
  · after_results_simp; exact h0
  · after_results_simp; exact h1
  · after_results_simp; exact h2

attribute [local irreducible] Host.reduce Host.reduceAdd Host.gather Host.scatterAdd Host.exp Host.log Host.negf Host.divf broadcastInDim shapeCast constant constantI maximumf subf addf mulf cmpf cmpi addi muli andi select in
/-- After the second stretch, from the log-softmax and the labels: the per-sample loss. -/
theorem stretchB (W : Valuation τ sig (Elt F)) (x0 : (⟨S16777216x3, .f32⟩ : BufTy).Contents (Elt F)) (x1 : (⟨S16777216, .i32⟩ : BufTy).Contents (Elt F)) (x2 : (⟨S2, .f32⟩ : BufTy).Contents (Elt F))
    (h0 : W (Proc.devRef .tc main_arg0) = x0) (h1 : W (Proc.devRef .tc main_arg1) = x1) (h2 : W (Proc.devRef .tc main_arg2) = x2)
    (hv0 : W (Proc.devRef .tc main_v0) = ReadP.val_main_v0 x0) :
    after (opsB (F := F)) W (Proc.devRef .tc main_v4) = ReadP.val_main_v4 x0 x1
    ∧ after (opsB (F := F)) W (Proc.devRef .tc main_arg0) = x0
    ∧ after (opsB (F := F)) W (Proc.devRef .tc main_arg1) = x1
    ∧ after (opsB (F := F)) W (Proc.devRef .tc main_arg2) = x2 := by
  unfold opsB
  refine ⟨?_, ?_, ?_, ?_⟩
  · after_results_simp
    simp only [hv0, h1]
    rfl
  · after_results_simp; exact h0
  · after_results_simp; exact h1
  · after_results_simp; exact h2

attribute [local irreducible] Host.reduce Host.reduceAdd Host.gather Host.scatterAdd Host.exp Host.log Host.negf Host.divf broadcastInDim shapeCast constant constantI maximumf subf addf mulf cmpf cmpi addi muli andi select in
/-- After the third stretch, from the logits and the labels: the group word and the subgroup word; the per-sample
    loss is not written. -/
theorem stretchC (W : Valuation τ sig (Elt F)) (x0 : (⟨S16777216x3, .f32⟩ : BufTy).Contents (Elt F)) (x1 : (⟨S16777216, .i32⟩ : BufTy).Contents (Elt F)) (x2 : (⟨S2, .f32⟩ : BufTy).Contents (Elt F))
    (h0 : W (Proc.devRef .tc main_arg0) = x0) (h1 : W (Proc.devRef .tc main_arg1) = x1) (h2 : W (Proc.devRef .tc main_arg2) = x2)
    (y4 : (⟨S16777216, .f32⟩ : BufTy).Contents (Elt F)) (hv4 : W (Proc.devRef .tc main_v4) = y4) :
    after (opsC (F := F)) W (Proc.devRef .tc main_v11) = ReadP.val_main_v11 x0
    ∧ after (opsC (F := F)) W (Proc.devRef .tc main_v14) = ReadP.val_main_v14 x0 x1
    ∧ after (opsC (F := F)) W (Proc.devRef .tc main_v4) = y4
    ∧ after (opsC (F := F)) W (Proc.devRef .tc main_arg0) = x0
    ∧ after (opsC (F := F)) W (Proc.devRef .tc main_arg1) = x1
    ∧ after (opsC (F := F)) W (Proc.devRef .tc main_arg2) = x2 := by
  unfold opsC
  refine ⟨?_, ?_, ?_, ?_, ?_, ?_⟩
  · after_results_simp
    simp only [h0]
    rfl
  · after_results_simp
    simp only [h0, h1]
    rfl
  · after_results_simp; exact hv4
  · after_results_simp; exact h0
  · after_results_simp; exact h1
  · after_results_simp; exact h2

attribute [local irreducible] Host.reduce Host.reduceAdd Host.gather Host.scatterAdd Host.exp Host.log Host.negf Host.divf broadcastInDim shapeCast constant constantI maximumf subf addf mulf cmpf cmpi addi muli andi select in
/-- After the last stretch, from the per-sample loss, the two words and the group weights: the three results. -/
theorem stretchD (W : Valuation τ sig (Elt F)) (x0 : (⟨S16777216x3, .f32⟩ : BufTy).Contents (Elt F)) (x1 : (⟨S16777216, .i32⟩ : BufTy).Contents (Elt F)) (x2 : (⟨S2, .f32⟩ : BufTy).Contents (Elt F))
    (h0 : W (Proc.devRef .tc main_arg0) = x0) (h1 : W (Proc.devRef .tc main_arg1) = x1) (h2 : W (Proc.devRef .tc main_arg2) = x2)
    (hv4 : W (Proc.devRef .tc main_v4) = ReadP.val_main_v4 x0 x1) (hv11 : W (Proc.devRef .tc main_v11) = ReadP.val_main_v11 x0)
    (hv14 : W (Proc.devRef .tc main_v14) = ReadP.val_main_v14 x0 x1) :
    after (opsD (F := F)) W (Proc.devRef .tc main_v27) = ReadP.val_main_v27 x0 x1 x2
    ∧ after (opsD (F := F)) W (Proc.devRef .tc main_v17) = ReadP.val_main_v17 x0 x1
    ∧ after (opsD (F := F)) W (Proc.devRef .tc main_v20) = ReadP.val_main_v20 x0 x1
    ∧ after (opsD (F := F)) W (Proc.devRef .tc main_arg0) = x0
    ∧ after (opsD (F := F)) W (Proc.devRef .tc main_arg1) = x1
    ∧ after (opsD (F := F)) W (Proc.devRef .tc main_arg2) = x2 := by
  unfold opsD
  refine ⟨?_, ?_, ?_, ?_, ?_, ?_⟩
  · after_results_simp
    simp only [hv4, hv11, hv14, h2]
    rfl
  · after_results_simp
    simp only [hv4, hv11]
    rfl
  · after_results_simp
    simp only [hv4, hv14]
    rfl
  · after_results_simp; exact h0
  · after_results_simp; exact h1
  · after_results_simp; exact h2

/-! ## The whole line -/

/-- From any contents: after all the operations the three result buffers hold their stage values of the arguments'
    contents, and the arguments' buffers hold what they held. -/
theorem after_ops (V : Valuation τ sig (Elt F)) (x0 : (⟨S16777216x3, .f32⟩ : BufTy).Contents (Elt F)) (x1 : (⟨S16777216, .i32⟩ : BufTy).Contents (Elt F)) (x2 : (⟨S2, .f32⟩ : BufTy).Contents (Elt F))
    (h0 : V (Proc.devRef .tc main_arg0) = x0) (h1 : V (Proc.devRef .tc main_arg1) = x1) (h2 : V (Proc.devRef .tc main_arg2) = x2) :
    after (ValueP.ops (F := F)) V (Proc.devRef .tc main_v27) = ReadP.val_main_v27 x0 x1 x2
    ∧ after (ValueP.ops (F := F)) V (Proc.devRef .tc main_v17) = ReadP.val_main_v17 x0 x1
    ∧ after (ValueP.ops (F := F)) V (Proc.devRef .tc main_v20) = ReadP.val_main_v20 x0 x1
    ∧ after (ValueP.ops (F := F)) V (Proc.devRef .tc main_arg0) = x0
    ∧ after (ValueP.ops (F := F)) V (Proc.devRef .tc main_arg1) = x1
    ∧ after (ValueP.ops (F := F)) V (Proc.devRef .tc main_arg2) = x2 := by
  rw [after_ops_eq]
  obtain ⟨a_v0, a_0, a_1, a_2⟩ := stretchA V x0 x1 x2 h0 h1 h2
  obtain ⟨b_v4, b_0, b_1, b_2⟩ := stretchB (after opsA V) x0 x1 x2 a_0 a_1 a_2 a_v0
  obtain ⟨c_v11, c_v14, c_v4, c_0, c_1, c_2⟩ := stretchC (after opsB (after opsA V)) x0 x1 x2 b_0 b_1 b_2 _ b_v4
  exact stretchD (after opsC (after opsB (after opsA V))) x0 x1 x2 c_0 c_1 c_2 c_v4 c_v11 c_v14

/-- On every device, from any memory with zero counters: every weakly fair execution of the reference's @main terminates
    with the combined loss, the group losses and the subgroup losses at their stage values of the arguments, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27)
          = ReadP.val_main_v27 (F := F) (m ((c.tc : Thread nD τ).loc main_arg0)) (m ((c.tc : Thread nD τ).loc main_arg1))
              (m ((c.tc : Thread nD τ).loc main_arg2))
      ∧ r.2.mem ((c.tc : Thread nD τ).loc main_v17)
          = ReadP.val_main_v17 (F := F) (m ((c.tc : Thread nD τ).loc main_arg0)) (m ((c.tc : Thread nD τ).loc main_arg1))
      ∧ r.2.mem ((c.tc : Thread nD τ).loc main_v20)
          = ReadP.val_main_v20 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (ValueP.run_after m ρ)
  obtain ⟨e27, e17, e20, e0, e1, e2⟩ := after_ops (F := F) (launchContents m c)
    (m ((c.tc : Thread nD τ).loc main_arg0)) (m ((c.tc : Thread nD τ).loc main_arg1)) (m ((c.tc : Thread nD τ).loc main_arg2))
    rfl rfl rfl
  exact ⟨(h c main_v27).trans e27, (h c main_v17).trans e17, (h c main_v20).trans e20,
    (h c main_arg0).trans e0, (h c main_arg1).trans e1, (h c main_arg2).trans e2⟩

end Cert.ReferenceIdeal.Stages

end
-- ==== Proof.LibTakeAlongLast.lean ====
/-
  One element per row of a two-axis table, chosen along the LAST axis by a column of start indices, read at an index.

  `jnp.take_along_axis(x, idx, axis = -1)` of `x : [N, C]` with `idx : [N, 1]` lowers to a gather in which the first
  operand axis is a batching axis paired with the start indices' first axis, the second is collapsed and indexed by the
  start index, and every slice is one element: start indices `[N, 1, 1]`, result `[N, 1]`. The result element of row i
  is the table's element of row i whose column is the start index `idx[i, 0, 0]`, read as a signed integer and clamped
  into `[0, C - 1]`.

  On the row axis the operand index is the batching coordinate alone (no start, no offset), and that is the row; on
  the column axis it is the clamped start alone, read at the start-indices index `[i, 0, 0]` (`takeLastDims_siIdx`).
-/
import Idealize.ShloMosaic.Lib.ValueIdx

noncomputable section

namespace Idealize.ShloMosaic.TakeAlongLast

open Idealize.ShloMosaic Idealize.ShloMosaic.ValueIdx

variable {α : Type}

/-- The clamped position a signed word names on an axis of extent `C` (a slice of one element). -/
abbrev clampPos {w : Nat} (C : Nat) (hC : 0 < C) (v : BitVec w) : Fin C := ⟨min v.toInt.toNat (C - 1), by omega⟩

/-- The dimension numbers of the row-wise take along the last axis. -/
abbrev takeLastDims (N C : Nat)
    (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- The start-indices index at which row `i` reads the one component of its start index is `[i, 0, 0]`: the
    row on the batching axis, the result's unit axis on the middle axis, the component on the last. -/
theorem takeLastDims_siIdx {N C : Nat}
    (wf : GatherDims.WF ⟨2, ![N, C]⟩ ⟨3, ![N, 1, 1]⟩ ⟨2, ![N, 1]⟩ [] [1] [0] [1] [0] 2 ![1, 1])
    (i : Fin N) (c : Fin (takeLastDims N C wf).startIndexMap.length) :
    (takeLastDims N C wf).siIdx (ix2 i (0 : Fin 1)) c = ix3 i (0 : Fin 1) (0 : Fin 1) := by
  have hc : c.val = 0 := by
    have := c.isLt
    change c.val < 1 at this
    omega
  funext b; refine Fin.ext ?_
  match b with
  | ⟨0, _⟩ => rfl
  | ⟨1, _⟩ => rfl
  | ⟨2, _⟩ => exact hc

/-- THE TAKE AT ROW `i`: the table at row `i` and column `idx[i, 0, 0]` (signed, clamped). -/
theorem gather_takeLast_apply {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (i : Fin N) :
    Host.gather (takeLastDims N C wf) x idx (ix2 i (0 : Fin 1))
      = x (ix2 i (clampPos C hC (idx (ix3 i (0 : Fin 1) (0 : Fin 1))))) := by
  unfold Host.gather
  refine congrArg x (funext fun a => Fin.ext ?_)
  match a with
  | ⟨0, _⟩ =>
    -- the row axis is the batching axis: no start, no offset, and the batching coordinate is the row
    show (takeLastDims N C wf).start (ix2 i (0 : Fin 1)) idx 0 + (takeLastDims N C wf).batchCoord (ix2 i (0 : Fin 1)) 0
      + (takeLastDims N C wf).offCoord (ix2 i (0 : Fin 1)) 0 = i.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (takeLastDims N C wf).operandBatchingDims from List.mem_singleton.mpr rfl)]
    rfl
  | ⟨1, _⟩ =>
    -- the column axis is collapsed and indexed: the clamped start alone
    show (takeLastDims N C wf).start (ix2 i (0 : Fin 1)) idx 1 + (takeLastDims N C wf).batchCoord (ix2 i (0 : Fin 1)) 1
      + (takeLastDims N C wf).offCoord (ix2 i (0 : Fin 1)) 1 = min (idx (ix3 i (0 : Fin 1) (0 : Fin 1))).toInt.toNat (C - 1)
    rw [GatherDims.batchCoord_eq_zero _ _ _ (fun h => absurd (List.mem_singleton.mp h) (show ¬ ((1 : Fin 2) = 0) by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (takeLastDims N C wf).startIndexMap from List.mem_singleton.mpr rfl)]
    rw [takeLastDims_siIdx]
    rfl

end Idealize.ShloMosaic.TakeAlongLast

end
-- ==== Proof.RefValue.lean ====
/-
  The reference's three results, as mathematics: with finite logits and labels among 0, 1, 2 its subgroup losses, group
  losses and combined loss are the sums of the specification.
-/
import proofs.«426219_j71717363908861_3_alg».proof.Proof.RefRead
import proofs.«426219_j71717363908861_3_alg».proof.Proof.Spec
import proofs.«426219_j71717363908861_3_alg».proof.Proof.LibScatterAddBins
import proofs.«426219_j71717363908861_3_alg».proof.Proof.LibTakeAlongLast
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx

variable (x : FVec Ideal S16777216x3 .f32) (l : IVec S16777216 32) (w : FVec Ideal S2 .f32)

/-! ## Indices -/

theorem idx_v3 (i : Fin 16777216) : ReadP.idx_main_v3 (ix1 i) = ix2 i (0 : Fin 1) := by
  funext a
  match a with
  | ⟨0, _⟩ => exact Fin.ext (Nat.div_one _)
  | ⟨1, _⟩ => rfl

theorem idx_v1 (i : Fin 16777216) : ReadP.idx_main_v1 (ix2 i (0 : Fin 1)) = ix1 i := by
  funext a
  match a with
  | ⟨0, _⟩ => rfl

theorem idx_c1v5 (i : Fin 16777216) : ReadP.idx_main_call1_v5 (ix3 i (0 : Fin 1) (0 : Fin 1)) = ix2 i (0 : Fin 1) := by
  funext a
  match a with
  | ⟨0, _⟩ => exact Fin.ext (by show ((i.val * 1 + 0) * 1 + 0) / 1 = i.val; omega)
  | ⟨1, _⟩ => rfl

/-! ## The label side -/

/-- The start index of the take is the label itself: a label among 0, 1, 2 is not negative. -/
theorem start_eq (hl : ∀ i : Fin 16777216, l (ix1 i) = 0#32 ∨ l (ix1 i) = 1#32 ∨ l (ix1 i) = 2#32) (i : Fin 16777216) :
    ReadP.val_main_call1_v5 (F := Ideal) l (ix3 i (0 : Fin 1) (0 : Fin 1)) = l (ix1 i) := by
  rw [ReadP.val_main_call1_v5_apply, idx_c1v5, ReadP.val_main_call1_v4_apply, ReadP.val_main_call1_v1_apply,
    ReadP.val_main_call1_v3_apply, ReadP.val_main_v1_apply, idx_v1, ReadP.val_main_call1_v0_apply,
    ReadP.val_main_call1_c_apply, ReadP.val_main_call1_v2_apply, ReadP.val_main_call1_c_0_apply]
  rcases hl i with e | e | e <;> rw [e] <;> decide

/-! ## Folds over short axes -/

theorem fold_univ_fin1 {α : Type} (op : α → α → α) [Std.Commutative op] [Std.Associative op] (b : α) (f : Fin 1 → α) :
    (Finset.univ : Finset (Fin 1)).fold op b f = op (f 0) b := by
  rw [Finset.univ_unique, Finset.fold_singleton]
  rfl

theorem fold_univ_fin3 {α : Type} (op : α → α → α) [Std.Commutative op] [Std.Associative op] (b : α) (f : Fin 3 → α) :
    (Finset.univ : Finset (Fin 3)).fold op b f = op (f 0) (op (f 1) (op (f 2) b)) := by
  simp only [Fin.univ_succ, Finset.fold_cons, Finset.fold_map, Finset.univ_unique, Finset.fold_singleton]
  rfl

/-! ## The bounds test -/

theorem lift_d2 (h : S16777216x1x1.Reduces [2] S16777216x1) (i : Fin 16777216) (k : Fin (S16777216x1x1.size 2)) :
    h.lift (ix2 i (0 : Fin 1)) k = ix3 i (0 : Fin 1) (0 : Fin 1) := by
  funext c; apply Fin.ext
  fin_cases c
  · rfl
  · rfl
  · have hk : k.val < 1 := k.isLt
    show k.val = 0
    omega

/-- A label among 0, 1, 2 passes the bounds test 0 ≤ l ≤ 2. -/
theorem inb_eq (hl : ∀ i : Fin 16777216, l (ix1 i) = 0#32 ∨ l (ix1 i) = 1#32 ∨ l (ix1 i) = 2#32) (i : Fin 16777216) :
    ReadP.val_main_call1_v12 (F := Ideal) l (ix2 i (0 : Fin 1)) = 1#1 := by
  have h : S16777216x1x1.Reduces [2] S16777216x1 := by decide
  unfold ReadP.val_main_call1_v12
  refine (Host.reduce_eq_fold_single IntOp.andi _ _ reducesTo_S16777216x1x1_S16777216x1_d2 h h_S_ (ix2 i (0 : Fin 1))).trans ?_
  refine (fold_univ_fin1 IntOp.andi _ _).trans ?_
  show IntOp.andi (ReadP.val_main_call1_v11 (F := Ideal) l (h.lift (ix2 i (0 : Fin 1)) ⟨0, Nat.one_pos⟩)) (1#1) = 1#1
  rw [lift_d2, ReadP.val_main_call1_v11_apply, ReadP.val_main_call1_v7_apply, ReadP.val_main_call1_v10_apply,
    start_eq l hl i, ReadP.val_main_call1_v6_apply, ReadP.val_main_call1_c_2_apply, ReadP.val_main_call1_v9_apply,
    ReadP.val_main_call1_v8_apply, ReadP.val_main_call1_c_1_apply]
  rcases hl i with e | e | e <;> rw [e] <;> decide

/-! ## The take -/

/-- The taken column: the label's class. -/
def labelCol (c : BitVec 32) : Fin 3 := TakeAlongLast.clampPos 3 (by decide) c

/-- The take reads the table at the row's label column. -/
theorem take_eq (hl : ∀ i : Fin 16777216, l (ix1 i) = 0#32 ∨ l (ix1 i) = 1#32 ∨ l (ix1 i) = 2#32) (i : Fin 16777216) :
    ReadP.val_main_call1_v13 (F := Ideal) x l (ix2 i (0 : Fin 1))
      = ReadP.val_main_v0 (F := Ideal) x (ix2 i (labelCol (l (ix1 i)))) := by
  unfold ReadP.val_main_call1_v13
  refine (TakeAlongLast.gather_takeLast_apply (N := 16777216) (C := 3) (by decide)
    gather_S16777216x3_S16777216x1x1_S16777216x1_n_1_0_0_1_2_11_wf (ReadP.val_main_v0 (F := Ideal) x)
    (ReadP.val_main_call1_v5 (F := Ideal) l) i).trans ?_
  rw [start_eq l hl i]
  rfl

/-! ## The row's maximum, exponential sum and log-softmax -/

theorem lift_d1 (h : S16777216x3.Reduces [1] S16777216) (i : Fin 16777216) (k : Fin (S16777216x3.size 1)) :
    h.lift (ix1 i) k = ix2 i (⟨k.val, k.isLt⟩ : Fin 3) := by
  funext c; apply Fin.ext
  fin_cases c <;> rfl

theorem ninf_eq : Ideal.ofBits .f32 0xFF800000#32 = (⊥ : EReal) := by simp [Ideal.ofBits, Ideal.ieee]

/-- The fold of the maximum over a row from −∞ is the largest of its three logits. -/
theorem rowmax_eq (i : Fin 16777216) :
    ReadP.val_main_call0_v2 (F := Ideal) x (ix1 i)
      = Cert.GroupLoss.top3 (x (ix2 i (0 : Fin 3))) (x (ix2 i (1 : Fin 3))) (x (ix2 i (2 : Fin 3))) := by
  have h : S16777216x3.Reduces [1] S16777216 := by decide
  rw [ReadP.val_main_call0_v2_apply, ReadP.val_main_call0_v1_apply, ReadP.val_main_call0_cst_0_apply]
  unfold ReadP.val_main_call0_v0
  rw [Host.reduce_eq_fold_single FloatOps.maximumf x _ reducesTo_S16777216x3_S16777216_d1 h h_S_ (ix1 i)]
  refine (congrArg (FloatOps.maximumf (F := Ideal) (φ := .f32) _) (fold_univ_fin3 _ _ _)).trans ?_
  show max (Ideal.ofBits .f32 0xFF800000#32) (max (x (h.lift (ix1 i) ⟨0, by decide⟩))
    (max (x (h.lift (ix1 i) ⟨1, by decide⟩)) (max (x (h.lift (ix1 i) ⟨2, by decide⟩)) (Ideal.ofBits .f32 0xFF800000#32)))) = _
  rw [lift_d1, lift_d1, lift_d1, ninf_eq]
  unfold Cert.GroupLoss.top3
  rw [max_bot_right, max_bot_left, max_assoc]
  rfl

theorem idx_c0v4 (i : Fin 16777216) (k : Fin 3) : ReadP.idx_main_call0_v4 (ix2 i k) = ix2 i (0 : Fin 1) := by
  funext a
  match a with
  | ⟨0, _⟩ => rfl
  | ⟨1, _⟩ => rfl

theorem idx_c0v3 (i : Fin 16777216) : ReadP.idx_main_call0_v3 (ix2 i (0 : Fin 1)) = ix1 i := by
  funext a
  match a with
  | ⟨0, _⟩ => rfl

theorem idx_c0v10 (i : Fin 16777216) (k : Fin 3) : ReadP.idx_main_call0_v10 (ix2 i k) = ix2 i (0 : Fin 1) := by
  funext a
  match a with
  | ⟨0, _⟩ => rfl
  | ⟨1, _⟩ => rfl

theorem idx_c0v8 (i : Fin 16777216) : ReadP.idx_main_call0_v8 (ix2 i (0 : Fin 1)) = ix1 i := by
  funext a
  match a with
  | ⟨0, _⟩ => rfl

theorem idx_c0v7 (i : Fin 16777216) (k : Fin 3) : ReadP.idx_main_call0_v7 (ix1 i) k = ix2 i k := by
  funext a
  match a with
  | ⟨0, _⟩ => rfl
  | ⟨1, _⟩ => rfl

/-- The row's three logits and their largest, by name. -/
abbrev rowA (i : Fin 16777216) : EReal := x (ix2 i (0 : Fin 3))
abbrev rowB (i : Fin 16777216) : EReal := x (ix2 i (1 : Fin 3))
abbrev rowC (i : Fin 16777216) : EReal := x (ix2 i (2 : Fin 3))
abbrev rowMax (i : Fin 16777216) : EReal := Cert.GroupLoss.top3 (rowA x i) (rowB x i) (rowC x i)

/-- A logit shifted by its row's largest. -/
theorem shift_eq (i : Fin 16777216) (k : Fin 3) :
    ReadP.val_main_call0_v5 (F := Ideal) x (ix2 i k) = x (ix2 i k) - rowMax x i := by
  rw [ReadP.val_main_call0_v5_apply, ReadP.val_main_call0_v4_apply, idx_c0v4, ReadP.val_main_call0_v3_apply, idx_c0v3,
    rowmax_eq]
  rfl

/-- The row's sum of shifted exponentials. -/
theorem expsum_eq (i : Fin 16777216) :
    ReadP.val_main_call0_v7 (F := Ideal) x (ix1 i)
      = (Ideal.exp (rowA x i - rowMax x i) + Ideal.exp (rowB x i - rowMax x i)) + Ideal.exp (rowC x i - rowMax x i) := by
  rw [ReadP.val_main_call0_v7_apply, ReadP.val_main_call0_cst_1_apply, Fin.sum_univ_three, idx_c0v7, idx_c0v7, idx_c0v7,
    ReadP.val_main_call0_v6_apply, ReadP.val_main_call0_v6_apply, ReadP.val_main_call0_v6_apply, shift_eq, shift_eq, shift_eq]
  show Ideal.ofBits .f32 0x00000000#32 + _ = _
  rw [Ideal.ofBits_zero_f32, zero_add]
  rfl

/-- The log-softmax entry of class k in row i. -/
theorem lsm_eq (i : Fin 16777216) (k : Fin 3) :
    ReadP.val_main_v0 (F := Ideal) x (ix2 i k)
      = (x (ix2 i k) - rowMax x i)
        - Ideal.log ((Ideal.exp (rowA x i - rowMax x i) + Ideal.exp (rowB x i - rowMax x i)) + Ideal.exp (rowC x i - rowMax x i)) := by
  rw [ReadP.val_main_v0_apply, shift_eq, ReadP.val_main_call0_v10_apply, idx_c0v10, ReadP.val_main_call0_v9_apply,
    ReadP.val_main_call0_v8_apply, idx_c0v8, expsum_eq]
  rfl

/-! ## The per-sample loss -/

/-- The largest of three reals is a real. -/
theorem real_top3 (a b c : EReal) (ha : ∃ r : ℝ, a = (r : EReal)) (hb : ∃ r : ℝ, b = (r : EReal)) (hc : ∃ r : ℝ, c = (r : EReal)) :
    ∃ r : ℝ, Cert.GroupLoss.top3 a b c = (r : EReal) := by
  unfold Cert.GroupLoss.top3
  rcases max_choice (max a b) c with h | h
  · rw [h]
    rcases max_choice a b with h' | h'
    · rw [h']; exact ha
    · rw [h']; exact hb
  · rw [h]; exact hc

/-- On a label among 0, 1, 2 the taken column holds the logit the label names. -/
theorem pick_col (i : Fin 16777216) (c : BitVec 32) (hc : c = 0#32 ∨ c = 1#32 ∨ c = 2#32) :
    x (ix2 i (labelCol c)) = Cert.GroupLoss.pick (rowA x i) (rowB x i) (rowC x i) c := by
  unfold Cert.GroupLoss.pick Scalar.select
  rcases hc with e | e | e
  · rw [e, if_pos (by decide), show labelCol 0#32 = (0 : Fin 3) by decide]
  · rw [e, if_neg (by decide), if_pos (by decide), show labelCol 1#32 = (1 : Fin 3) by decide]
  · rw [e, if_neg (by decide), if_neg (by decide), show labelCol 2#32 = (2 : Fin 3) by decide]

/-- The reference's per-sample loss is the specification's cross-entropy. -/
theorem ce_ref (hx : ∀ j, ∃ r : ℝ, x j = (r : EReal))
    (hl : ∀ i : Fin 16777216, l (ix1 i) = 0#32 ∨ l (ix1 i) = 1#32 ∨ l (ix1 i) = 2#32) (i : Fin 16777216) :
    ReadP.val_main_v4 (F := Ideal) x l (ix1 i) = Cert.GroupLoss.ceAt x l i := by
  rw [ReadP.val_main_v4_apply, ReadP.val_main_v3_apply, idx_v3, ReadP.val_main_v2_apply, inb_eq l hl i, take_eq x l hl i,
    lsm_eq, pick_col x i _ (hl i)]
  unfold Scalar.select
  rw [if_pos (by decide)]
  show -(_ - _) = _
  obtain ⟨m, hm⟩ := real_top3 (rowA x i) (rowB x i) (rowC x i) (hx _) (hx _) (hx _)
  have hp : ∃ r : ℝ, Cert.GroupLoss.pick (rowA x i) (rowB x i) (rowC x i) (l (ix1 i)) = (r : EReal) := by
    rw [← pick_col x i _ (hl i)]; exact hx _
  obtain ⟨p, hp⟩ := hp
  unfold Cert.GroupLoss.ceAt Cert.GroupLoss.ce
  show -((Cert.GroupLoss.pick (rowA x i) (rowB x i) (rowC x i) (l (ix1 i)) - rowMax x i) - _) = _ - (Cert.GroupLoss.pick (rowA x i) (rowB x i) (rowC x i) (l (ix1 i)) - rowMax x i)
  have hA : Cert.GroupLoss.pick (rowA x i) (rowB x i) (rowC x i) (l (ix1 i)) - rowMax x i = ((p - m : ℝ) : EReal) := by
    rw [hp, show rowMax x i = (m : EReal) from hm, EReal.coe_sub]
  rw [hA, EReal.neg_sub (Or.inl (EReal.coe_ne_bot _)) (Or.inl (EReal.coe_ne_top _))]
  exact (add_comm _ _).trans (sub_eq_add_neg _ _).symm

/-! ## Group and subgroup words -/

theorem idx_v5 (i : Fin 16777216) (k : Fin 3) : ReadP.idx_main_v5 (ix1 i) k = ix2 i k := by
  funext a
  match a with
  | ⟨0, _⟩ => rfl
  | ⟨1, _⟩ => rfl

/-- The reference's group word is the specification's. -/
theorem grp_ref (i : Fin 16777216) : ReadP.val_main_v11 (F := Ideal) x (ix1 i) = Cert.GroupLoss.grpAt x i := by
  rw [ReadP.val_main_v11_apply, ReadP.val_main_v10_apply, ReadP.val_main_v9_apply, ReadP.val_main_v7_apply,
    ReadP.val_main_v5_apply, ReadP.val_main_cst_apply, Fin.sum_univ_three, idx_v5, idx_v5, idx_v5, ReadP.val_main_v6_apply,
    ReadP.val_main_cst_0_apply, ReadP.val_main_v8_apply, ReadP.val_main_cst_1_apply, ReadP.val_main_call2_v0_apply,
    ReadP.val_main_c_apply, ReadP.val_main_call2_v1_apply, ReadP.val_main_c_2_apply]
  show Scalar.select (FloatOps.cmpf (F := Ideal) (φ := .f32) .olt (Ideal.div (Ideal.ofBits .f32 0x00000000#32 + _) _) _) _ _ = _
  rw [Ideal.ofBits_zero_f32, zero_add]
  rfl

/-- The reference's subgroup word is the specification's. -/
theorem sub_ref (i : Fin 16777216) : ReadP.val_main_v14 (F := Ideal) x l (ix1 i) = Cert.GroupLoss.subAt x l i := by
  rw [ReadP.val_main_v14_apply, ReadP.val_main_v13_apply, grp_ref, ReadP.val_main_v12_apply, ReadP.val_main_c_3_apply]
  rfl

/-! ## Bin words -/

/-- A small number's word, read as a signed integer, is the number. -/
theorem toInt_ofNat_small (b : Nat) (hb : b < 6) : (BitVec.ofNat 32 b).toInt = (b : Int) := by
  obtain rfl | rfl | rfl | rfl | rfl | rfl : b = 0 ∨ b = 1 ∨ b = 2 ∨ b = 3 ∨ b = 4 ∨ b = 5 := by omega
  all_goals decide

/-- A word reads as the small number b exactly when it is b's word. -/
theorem word_eq_iff (s : BitVec 32) (b : Nat) (hb : b < 6) : s.toInt = (b : Int) ↔ s = BitVec.ofNat 32 b :=
  ⟨fun h => BitVec.eq_of_toInt_eq (h.trans (toInt_ofNat_small b hb).symm), fun h => h ▸ toInt_ofNat_small b hb⟩

theorem idx_v19 (i : Fin 16777216) : ReadP.idx_main_v19 (ix2 i (0 : Fin 1)) = ix1 i := by
  funext a
  match a with
  | ⟨0, _⟩ => rfl

theorem idx_v16 (i : Fin 16777216) : ReadP.idx_main_v16 (ix2 i (0 : Fin 1)) = ix1 i := by
  funext a
  match a with
  | ⟨0, _⟩ => rfl

/-! ## The two scatter-adds, read at a bin -/

theorem scatter6_eq : scatter_S6_S16777216x1_S16777216_n_0_0_1
    = ScatterAddBins.binsDims 6 16777216 scatter_S6_S16777216x1_S16777216_n_0_0_1_wf := rfl

theorem scatter2_eq : scatter_S2_S16777216x1_S16777216_n_0_0_1
    = ScatterAddBins.binsDims 2 16777216 scatter_S2_S16777216x1_S16777216_n_0_0_1_wf := rfl

/-- The subgroup scatter-add at bin b, for any operand, index column and updates: the operand's entry plus the updates
    whose index word reads b. -/
theorem scatter6_apply (z : (⟨1, ![6]⟩ : Shape).Idx → EReal) (idx : IVec ⟨2, ![16777216, 1]⟩ 32)
    (upd : (⟨1, ![16777216]⟩ : Shape).Idx → EReal) (b : Fin 6) :
    Host.scatterAdd (F := Ideal) (φ := .f32) scatter_S6_S16777216x1_S16777216_n_0_0_1 z idx upd (ix1 b)
      = z (ix1 b) + ∑ i : Fin 16777216, if (idx (ix2 i (0 : Fin 1))).toInt = (b.val : Int) then upd (ix1 i) else 0 := by
  simp only [Host.scatterAdd, Ideal.hostScatterAdd_def]
  rw [scatter6_eq]
  exact ScatterAddBins.scatterAdd_bins_apply scatter_S6_S16777216x1_S16777216_n_0_0_1_wf z idx upd b

/-- The group scatter-add at bin b likewise. -/
theorem scatter2_apply (z : (⟨1, ![2]⟩ : Shape).Idx → EReal) (idx : IVec ⟨2, ![16777216, 1]⟩ 32)
    (upd : (⟨1, ![16777216]⟩ : Shape).Idx → EReal) (b : Fin 2) :
    Host.scatterAdd (F := Ideal) (φ := .f32) scatter_S2_S16777216x1_S16777216_n_0_0_1 z idx upd (ix1 b)
      = z (ix1 b) + ∑ i : Fin 16777216, if (idx (ix2 i (0 : Fin 1))).toInt = (b.val : Int) then upd (ix1 i) else 0 := by
  simp only [Host.scatterAdd, Ideal.hostScatterAdd_def]
  rw [scatter2_eq]
  exact ScatterAddBins.scatterAdd_bins_apply scatter_S2_S16777216x1_S16777216_n_0_0_1_wf z idx upd b

/-- The subgroup losses: the scatter-add of the per-sample losses by subgroup word. -/
theorem sub_eq (hx : ∀ j, ∃ r : ℝ, x j = (r : EReal))
    (hl : ∀ i : Fin 16777216, l (ix1 i) = 0#32 ∨ l (ix1 i) = 1#32 ∨ l (ix1 i) = 2#32) :
    ReadP.val_main_v20 (F := Ideal) x l = Cert.GroupLoss.outSub x l := by
  funext j
  obtain ⟨b, rfl⟩ : ∃ b : Fin 6, j = ix1 b := ⟨j 0, eq_ix1 j⟩
  unfold ReadP.val_main_v20 Cert.GroupLoss.outSub Cert.GroupLoss.subLoss
  rw [scatter6_apply, ReadP.val_main_v18_apply, ReadP.val_main_cst_5_apply, Ideal.ofBits_def, Ideal.ofBits_zero_f32, zero_add]
  refine Finset.sum_congr rfl fun i _ => ?_
  rw [ReadP.val_main_v19_apply, idx_v19, sub_ref, ce_ref x l hx hl i]
  exact if_congr (word_eq_iff _ b.val (by have := b.isLt; omega)) rfl rfl

/-- The group losses: the scatter-add of the per-sample losses by group word. -/
theorem grp_eq (hx : ∀ j, ∃ r : ℝ, x j = (r : EReal))
    (hl : ∀ i : Fin 16777216, l (ix1 i) = 0#32 ∨ l (ix1 i) = 1#32 ∨ l (ix1 i) = 2#32) :
    ReadP.val_main_v17 (F := Ideal) x l = Cert.GroupLoss.outGrp x l := by
  funext j
  obtain ⟨b, rfl⟩ : ∃ b : Fin 2, j = ix1 b := ⟨j 0, eq_ix1 j⟩
  unfold ReadP.val_main_v17 Cert.GroupLoss.outGrp Cert.GroupLoss.grpLoss
  rw [scatter2_apply, ReadP.val_main_v15_apply, ReadP.val_main_cst_4_apply, Ideal.ofBits_def, Ideal.ofBits_zero_f32, zero_add]
  refine Finset.sum_congr rfl fun i _ => ?_
  rw [ReadP.val_main_v16_apply, idx_v16, grp_ref, ce_ref x l hx hl i]
  exact if_congr (word_eq_iff _ b.val (by have := b.isLt; omega)) rfl rfl

/-! ## The combined loss -/

/-- A sum over the indices of a one-axis array is the sum over the axis. -/
theorem sum_ix1 {M : Type} [AddCommMonoid M] {n : Nat} (f : (⟨1, ![n]⟩ : Shape).Idx → M) :
    ∑ j, f j = ∑ i : Fin n, f (ix1 i) := by
  let e : (⟨1, ![n]⟩ : Shape).Idx ≃ Fin n := ⟨fun j => j 0, ix1, fun j => (eq_ix1 j).symm, fun _ => rfl⟩
  exact (Equiv.sum_comp e.symm f).symm

/-- The total of the reference's per-sample losses is the specification's total. -/
theorem total_ref (hx : ∀ j, ∃ r : ℝ, x j = (r : EReal))
    (hl : ∀ i : Fin 16777216, l (ix1 i) = 0#32 ∨ l (ix1 i) = 1#32 ∨ l (ix1 i) = 2#32) :
    ∑ j : S16777216.Idx, ReadP.val_main_v4 (F := Ideal) x l j = Cert.GroupLoss.total x l := by
  unfold Cert.GroupLoss.total
  rw [sum_ix1]
  exact Finset.sum_congr rfl fun i _ => ce_ref x l hx hl i

/-- The weighted group losses, summed over the two groups. -/
theorem weighted_ref (hx : ∀ j, ∃ r : ℝ, x j = (r : EReal))
    (hl : ∀ i : Fin 16777216, l (ix1 i) = 0#32 ∨ l (ix1 i) = 1#32 ∨ l (ix1 i) = 2#32) :
    ∑ j : S2.Idx, ReadP.val_main_v21 (F := Ideal) x l w j
      = Cert.GroupLoss.outGrp x l (ix1 (0 : Fin 2)) * w (ix1 (0 : Fin 2))
        + Cert.GroupLoss.outGrp x l (ix1 (1 : Fin 2)) * w (ix1 (1 : Fin 2)) := by
  rw [sum_ix1, Fin.sum_univ_two, ReadP.val_main_v21_apply, ReadP.val_main_v21_apply, grp_eq x l hx hl]
  rfl

/-- The closing arithmetic, over any total T and weighted sum G: the two zero initial values drop out. -/
theorem combine_eq (T G : EReal) :
    FloatOps.addf (F := Ideal) (φ := .f32)
      (FloatOps.mulf (FloatOps.ofBits .f32 0x3F333333#32)
        (FloatOps.hostDivf (FloatOps.ofBits .f32 0x00000000#32 + T) (FloatOps.ofBits .f32 0x4B800000#32)))
      (FloatOps.mulf (FloatOps.ofBits .f32 0x3E99999A#32) (FloatOps.ofBits .f32 0x00000000#32 + G))
      = Ideal.ofBits .f32 0x3F333333#32 * Ideal.div T (Ideal.ofBits .f32 0x4B800000#32)
        + Ideal.ofBits .f32 0x3E99999A#32 * G := by
  simp only [Ideal.addf_def, Ideal.mulf_def, Ideal.hostDivf_def, Ideal.ofBits_def, Ideal.ofBits_zero_f32, zero_add]

/-- The combined loss. -/
theorem all_eq (hx : ∀ j, ∃ r : ℝ, x j = (r : EReal))
    (hl : ∀ i : Fin 16777216, l (ix1 i) = 0#32 ∨ l (ix1 i) = 1#32 ∨ l (ix1 i) = 2#32) :
    ReadP.val_main_v27 (F := Ideal) x l w = Cert.GroupLoss.outAll x l w := by
  funext j
  unfold Cert.GroupLoss.outAll
  rw [ReadP.val_main_v27_apply, ReadP.val_main_v25_apply, ReadP.val_main_v26_apply, ReadP.val_main_v24_apply,
    ReadP.val_main_v23_apply, ReadP.val_main_v22_apply, ReadP.val_main_cst_9_apply, ReadP.val_main_cst_8_apply,
    ReadP.val_main_cst_10_apply, ReadP.val_main_cst_7_apply, ReadP.val_main_cst_6_apply,
    total_ref x l hx hl, weighted_ref x l w hx hl]
  generalize Cert.GroupLoss.total x l = T
  generalize Cert.GroupLoss.outGrp x l (ix1 (0 : Fin 2)) * w (ix1 (0 : Fin 2))
    + Cert.GroupLoss.outGrp x l (ix1 (1 : Fin 2)) * w (ix1 (1 : Fin 2)) = G
  exact combine_eq T G

end Cert.ReferenceIdeal.RefValue

end
-- ==== Proof.lean ====
/-
  The certificate of the group-weighted cross-entropy kernel against its reference, over the extended reals.

  Both programs return, for 16,777,216 samples of three class logits and a label each, the per-subgroup sums, the
  per-group sums and a weighted combination of the per-sample cross-entropy, a sample's group being decided by its mean
  logit and its subgroup by group and label. The kernel streams the samples in 128 blocks of 1024 × 128, accumulating six
  masked sums per core and adding the cores' rows and each group's three subgroups afterwards; the reference takes the
  label's log-softmax entry, negates it, and scatter-adds by group and by subgroup. Under the precondition — finite
  logits, labels among 0, 1, 2 — both equal the sums of the specification (Proof/Spec.lean): the kernel's by re-indexing
  samples through blocks, rows and lanes (Proof/KernelValue.lean), the reference's because a label in range makes the
  gather read the named class and because -(u - v) = v - u when u is finite (Proof/RefValue.lean). Finiteness is used
  only there; the label range also makes a group's three subgroups exhaust it. The kernel's idealization rewrote no
  operation, so `preserves` has nothing to state.
-/
import proofs.«426219_j71717363908861_3_alg».proof.Defs
import proofs.«426219_j71717363908861_3_alg».proof.Proof.Gen.Kernel
import proofs.«426219_j71717363908861_3_alg».proof.Proof.Gen.Kernel.Skeleton
import proofs.«426219_j71717363908861_3_alg».proof.Proof.Gen.Kernel.Launch
import proofs.«426219_j71717363908861_3_alg».proof.Proof.Gen.Kernel.Points
import proofs.«426219_j71717363908861_3_alg».proof.Proof.Gen.Kernel.Frame
import proofs.«426219_j71717363908861_3_alg».proof.Proof.Gen.KernelIdeal
import proofs.«426219_j71717363908861_3_alg».proof.Proof.Gen.KernelIdeal.Skeleton
import proofs.«426219_j71717363908861_3_alg».proof.Proof.Gen.KernelIdeal.Launch
import proofs.«426219_j71717363908861_3_alg».proof.Proof.Gen.KernelIdeal.Points
import proofs.«426219_j71717363908861_3_alg».proof.Proof.Gen.KernelIdeal.Frame
import proofs.«426219_j71717363908861_3_alg».proof.Proof.Gen.ReferenceIdeal
import proofs.«426219_j71717363908861_3_alg».proof.Proof.Gen.Pre_finite_inputs
import proofs.«426219_j71717363908861_3_alg».proof.Proof.PreFacts
import proofs.«426219_j71717363908861_3_alg».proof.Proof.KernelValue
import proofs.«426219_j71717363908861_3_alg».proof.Proof.RefStages
import proofs.«426219_j71717363908861_3_alg».proof.Proof.RefValue
import Idealize.ShloMosaic.Adequacy
import Idealize.ShloMosaic.Init

noncomputable section

namespace Cert.Proof

open Idealize.ShloMosaic Idealize.ShloMosaic.TcCoe Idealize.SL.Sem

/-- The three frames: the two kernels' are generated; the reference's is its run with the results dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => ⟨(h c).2.2.2.1, (h c).2.2.2.2.1, (h c).2.2.2.2.2⟩)
    (Cert.ReferenceIdeal.Stages.run (F := Ideal) m ρ)

/-- Under the precondition both programs end with the specification's three sums of the arguments they agree on. -/
theorem algebraic : Cert.algebraic_KernelIdeal_ReferenceIdeal := by
  intro m ρ m' ρ' hpre hagree
  have hf := fun c => Cert.PreFacts.of_pre _ _ _ (hpre c)
  refine ⟨fun c => Cert.GroupLoss.outAll (Cert.KernelIdeal.KValue.xs m c) (Cert.KernelIdeal.KValue.ls m c)
      (m ((c.tc : Thread Cert.KernelIdeal.nD Cert.KernelIdeal.τ).loc Cert.KernelIdeal.main_arg2)),
    fun c => Cert.GroupLoss.outGrp (Cert.KernelIdeal.KValue.xs m c) (Cert.KernelIdeal.KValue.ls m c),
    fun c => Cert.GroupLoss.outSub (Cert.KernelIdeal.KValue.xs m c) (Cert.KernelIdeal.KValue.ls m c),
    Cert.KernelIdeal.KValue.run m ρ (fun c => (hf c).2), ?_⟩
  refine (θ_run Cert.ReferenceIdeal.defs _ _).mono (fun _ h c => ⟨(h c).1.trans ?_, (h c).2.1.trans ?_, (h c).2.2.1.trans ?_,
    (h c).2.2.2.1, (h c).2.2.2.2.1, (h c).2.2.2.2.2⟩) (Cert.ReferenceIdeal.Stages.run (F := Ideal) m' ρ')
  · rw [(hagree c).1, (hagree c).2.1, (hagree c).2.2]
    exact Cert.ReferenceIdeal.RefValue.all_eq _ _ _ (hf c).1 (hf c).2
  · rw [(hagree c).1, (hagree c).2.1]
    exact Cert.ReferenceIdeal.RefValue.grp_eq _ _ (hf c).1 (hf c).2
  · rw [(hagree c).1, (hagree c).2.1]
    exact Cert.ReferenceIdeal.RefValue.sub_eq _ _ (hf c).1 (hf c).2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
